-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S4x1x4096 : Shape := ⟨3, ![4, 1, 4096]⟩
abbrev S1x3x512 : Shape := ⟨3, ![1, 3, 512]⟩
abbrev S1x3x4096 : Shape := ⟨3, ![1, 3, 4096]⟩
abbrev S1x1x512 : Shape := ⟨3, ![1, 1, 512]⟩
abbrev S1x1x4096 : Shape := ⟨3, ![1, 1, 4096]⟩
abbrev S512 : Shape := ⟨1, ![512]⟩
abbrev S4096 : Shape := ⟨1, ![4096]⟩
abbrev S512x1 : Shape := ⟨2, ![512, 1]⟩
abbrev S1x4096 : Shape := ⟨2, ![1, 4096]⟩
abbrev S512x4096 : Shape := ⟨2, ![512, 4096]⟩
abbrev S4x4096 : Shape := ⟨2, ![4, 4096]⟩
abbrev S_ : Shape := ⟨0, ![]⟩
abbrev S4 : Shape := ⟨1, ![4]⟩

abbrev nBuf : Space → Nat
  | .hbm => 23
  | .vmem => 8
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S4x3x4096, .f32⟩
  | .hbm, ⟨4, _⟩ => ⟨S4x1x4096, .f32⟩
  | .hbm, ⟨5, _⟩ => ⟨S4x1x4096, .f32⟩
  | .hbm, ⟨6, _⟩ => ⟨S4x4096, .f32⟩
  | .hbm, ⟨7, _⟩ => ⟨S4x4096, .f32⟩
  | .hbm, ⟨8, _⟩ => ⟨S_, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x3x512, .f32⟩
  | .local _ .vmem, ⟨1, _⟩ => ⟨S1x3x512, .f32⟩
  | .local _ .vmem, ⟨2, _⟩ => ⟨S1x3x4096, .f32⟩
  | .local _ .vmem, ⟨3, _⟩ => ⟨S1x3x4096, .f32⟩
  | .local _ .vmem, ⟨4, _⟩ => ⟨S1x1x512, .f32⟩
  | .local _ .vmem, ⟨5, _⟩ => ⟨S1x1x512, .f32⟩
  | .local _ .vmem, ⟨6, _⟩ => ⟨S1x1x4096, .f32⟩
  | .local _ .vmem, ⟨7, _⟩ => ⟨S1x1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v37 : BitVec 1 := Scalar.cmpi .eq arg1 c0_i32
  let v38 : BitVec 32 := Scalar.extui v37
  let c0_i32_19 : BitVec 32 := 0#32
  let v39 : BitVec 1 := Scalar.cmpi .ne v38 c0_i32_19
  v39

def k0_cond2 (i : grid0.Coords) : BitVec 1 :=
  let arg1 : BitVec 32 := BitVec.ofNat 32 (i 1).val
  let c0_i32_20 : BitVec 32 := 0#32
  let v40 : BitVec 1 := Scalar.cmpi .ne arg1 c0_i32_20
  let v41 : BitVec 32 := Scalar.extui v40
  let c0_i32_21 : BitVec 32 := 0#32
  let v42 : BitVec 1 := Scalar.cmpi .ne v41 c0_i32_21
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4x4096x3_S4x3x4096_0_2_1 : S4x4096x3.Transposes [0, 2, 1] S4x3x4096
  inb_S1x3x512_S1x1x512_0_0_0 : ∀ a, (![0, 0, 0] : Fin 3 → Nat) a + S1x1x512.size a ≤ S1x3x512.size a
  h_S1x1x512 : 0 < S1x1x512.numel
  shapeCasts_S1x1x512_S512 : S1x1x512.ShapeCasts S512
  inb_S1x3x512_S1x1x512_0_1_0 : ∀ a, (![0, 1, 0] : Fin 3 → Nat) a + S1x1x512.size a ≤ S1x3x512.size a
  inb_S1x3x512_S1x1x512_0_2_0 : ∀ a, (![0, 2, 0] : Fin 3 → Nat) a + S1x1x512.size a ≤ S1x3x512.size a
  inb_S1x3x4096_S1x1x4096_0_0_0 : ∀ a, (![0, 0, 0] : Fin 3 → Nat) a + S1x1x4096.size a ≤ S1x3x4096.size a
  h_S1x1x4096 : 0 < S1x1x4096.numel
  shapeCasts_S1x1x4096_S4096 : S1x1x4096.ShapeCasts S4096
  inb_S1x3x4096_S1x1x4096_0_1_0 : ∀ a, (![0, 1, 0] : Fin 3 → Nat) a + S1x1x4096.size a ≤ S1x3x4096.size a
  inb_S1x3x4096_S1x1x4096_0_2_0 : ∀ a, (![0, 2, 0] : Fin 3 → Nat) a + S1x1x4096.size a ≤ S1x3x4096.size a
  shapeCasts_S512_S512x1 : S512.ShapeCasts S512x1
  shapeCasts_S4096_S1x4096 : S4096.ShapeCasts S1x4096
  broadcasts_S512x1_S512x4096 : S512x1.Broadcasts S512x4096
  broadcasts_S1x4096_S512x4096 : S1x4096.Broadcasts S512x4096
  reduces_S512x4096_S512 : S512x4096.Reduces [1] S512
  inb_S1x1x512_S1x1x512_0_0_0 : ∀ a, (![0, 0, 0] : Fin 3 → Nat) a + S1x1x512.size a ≤ S1x1x512.size a
  shapeCasts_S512_S1x1x512 : S512.ShapeCasts S1x1x512
  reduces_S512x4096_S4096 : S512x4096.Reduces [0] S4096
  inb_S1x1x4096_S1x1x4096_0_0_0 : ∀ a, (![0, 0, 0] : Fin 3 → Nat) a + S1x1x4096.size a ≤ S1x1x4096.size a
  shapeCasts_S4096_S1x1x4096 : S4096.ShapeCasts S1x1x4096
  shapeCasts_S4x1x4096_S4x4096 : S4x1x4096.ShapeCasts S4x4096
  reducesTo_S4x4096_S4_d1 : S4x4096.ReducesTo [1] S4
  h_S_ : 0 < S_.numel
  bcast_S_S4 : S_.BroadcastsInDim S4 (![] : Fin 0 → Fin S4.rank)
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512.size a ≤ S4x3x4096.size a
  hwx0_0 : ∀ i : grid0.Coords, EltTy.bits .f32 = 32 ∨ (Rect.block (s := S4x3x4096) S1x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S4x3x4096.size a
  hwx0_1 : ∀ i : grid0.Coords, EltTy.bits .f32 = 32 ∨ (Rect.block (s := S4x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S4x1x4096.size a
  hwx0_2 : ∀ i : grid0.Coords, EltTy.bits .f32 = 32 ∨ (Rect.block (s := S4x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)

variable [Facts₀]

abbrev win0_0 : Pipeline.Window sig grid0 :=
  Pipeline.Window.ofSpec (Memref.whole main_v0) S1x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096 : Shape := ⟨2, ![4, 4096]⟩
abbrev S4 : Shape := ⟨1, ![4]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1x3, .f32⟩
  | .hbm, ⟨3, _⟩ => ⟨S4x1x4096x3, .f32⟩
  | .hbm, ⟨4, _⟩ => ⟨S4x4096x4096x3, .f32⟩
  | .hbm, ⟨5, _⟩ => ⟨S4x4096x4096x3, .f32⟩
  | .hbm, ⟨6, _⟩ => ⟨S4x4096x4096x3, .f32⟩
  | .hbm, ⟨7, _⟩ => ⟨S4x4096x4096x3, .f32⟩
  | .hbm, ⟨8, _⟩ => ⟨S_, .f32⟩
  | .hbm, ⟨9, _⟩ => ⟨S4x4096x4096, .f32⟩
  | .hbm, ⟨10, _⟩ => ⟨S_, .f32⟩
  | .hbm, ⟨11, _⟩ => ⟨S4x4096, .f32⟩
  | .hbm, ⟨12, _⟩ => ⟨S_, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4x4096, .f32⟩
  | .hbm, ⟨19, _⟩ => ⟨S_, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  reducesTo_S4x4096x4096_S4x4096_d2 : S4x4096x4096.ReducesTo [2] S4x4096
  reducesTo_S4x4096_S4_d1 : S4x4096.ReducesTo [1] S4
  bcast_S_S4 : S_.BroadcastsInDim S4 (![] : Fin 0 → Fin S4.rank)
  reducesTo_S4x4096x4096_S4x4096_d1 : S4x4096x4096.ReducesTo [1] S4x4096
  reducesTo_S4_S_d0 : S4.ReducesTo [0] S_

variable [Facts₀]

class Facts : Prop extends Facts₀ where

variable [Facts]
-- ==== Proof.BodyBitsBase.lean ====
/-
  The kernel body of the distance kernel, on any staging buffers: what the two cases of its conditionals share.

  The grid is 4 batches by 8 tiles of 512 points. The body's first conditional ("this is tile 0") stores the
  tile's column minima into the second result's buffer; its second ("this is a later tile") stores their minimum
  against what the buffer holds. Exactly one of the two holds at every grid point: the first at the points
  divisible by 8, the second at the others.
-/
import proofs.«108670_j85564338471044_1_alg».proof.Proof.Gen.Kernel.Frame
import proofs.«108670_j85564338471044_1_alg».proof.Proof.Gen.Kernel.Skeleton
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is tile 0" holds at the grid points divisible by 8 — decided over the 32 points. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- "This is a later tile" holds at the others. -/
theorem hcond2 : ∀ t : Fin cfg0.N, k0_cond2 (grid0.coords t) = 1#1 ↔ ¬t.val % 8 = 0 :=
  (by decide +kernel : ∀ t : Fin grid0.N, k0_cond2 (grid0.coords t) = 1#1 ↔ ¬t.val % 8 = 0)

/-- One staging buffer of each result window, through which its contents are stated. -/
abbrev VO2 : View sig .tc .vmem S1x1x512 .f32 := (Memref.whole cc0_stg2_0 : Memref sig .tc .vmem S1x1x512 .f32).view
abbrev VO3 : View sig .tc .vmem S1x1x4096 .f32 := (Memref.whole cc0_stg3_0 : Memref sig .tc .vmem S1x1x4096 .f32).view

/-- Each window's current staging buffer at point `t`, as the pipeline passes it to the body, and its wholeness. -/
abbrev ms0 (t : Fin cfg0.N) : Memref sig .tc .vmem S1x3x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

end Cert.Kernel.Body

end
-- ==== Proof.BodyBitsRunA.lean ====
/-
  The kernel body at a point of tile 0: from the two input blocks it stores the tile's row minima into the first
  result's buffer and the tile's column minima into the second's, whatever either held.
-/
import proofs.«108670_j85564338471044_1_alg».proof.Proof.BodyBitsBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where "this is tile 0" holds and "this is a later tile" does not: on whole staging buffers, the inputs'
    at their contents and the results' at anything, the body runs to a continuation that holds the inputs' as they
    were and each result's buffer with the body's stores written (the pieces, last first, are what the run finds). -/
noncomputable def kernelRunA (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1)
    (x0 : Vec F S1x3x512 .f32) (x1 : Vec F S1x3x4096 .f32) :
    Σ' (L2 : List (View.Piece (Elt F) S1x1x512 .f32)) (L3 : List (View.Piece (Elt F) S1x1x4096 .f32)),
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Body

end
-- ==== Proof.BodyBitsRunB.lean ====
/-
  The kernel body at a point of a later tile: from the two input blocks and what the second result's buffer holds it
  stores the tile's row minima into the first result's buffer, and into the second's the minimum of what it held and
  the tile's column minima.
-/
import proofs.«108670_j85564338471044_1_alg».proof.Proof.BodyBitsBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where "this is a later tile" holds and "this is tile 0" does not: on whole staging buffers, the inputs'
    at their contents, the first result's at anything and the second's at its running contents `xo3`, the body runs
    to a continuation that holds the inputs' as they were and each result's buffer with the body's stores written. -/
noncomputable def kernelRunB (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1)
    (x0 : Vec F S1x3x512 .f32) (x1 : Vec F S1x3x4096 .f32) (xo3 : Vec F S1x1x4096 .f32) :
    Σ' (L2 : List (View.Piece (Elt F) S1x1x512 .f32)) (L3 : List (View.Piece (Elt F) S1x1x4096 .f32)),
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Body

end
-- ==== Proof.BodyBitsFrame.lean ====
/-
  The frame of the distance kernel's program: the pipeline's proof data, the body at every grid point, and the run.

  After the body at a point, the first result's buffer holds what that point's case stored (it is written back at
  every point); the second result's buffer holds the case's store as well, but it is carried from tile to tile of a
  batch and written back only after the batch's last tile, so at a later tile the body finds in it what the tile
  before left: its contents are defined by recursion on the point.
-/
import proofs.«108670_j85564338471044_1_alg».proof.Proof.BodyBitsRunA
import proofs.«108670_j85564338471044_1_alg».proof.Proof.BodyBitsRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the results' buffers -/

/-- At tile 0 the stores into the first result's buffer cover it, -/
theorem coverA_2 (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (x0 : Vec F S1x3x512 .f32) (x1 : Vec F S1x3x4096 .f32) (y : S1x1x512.Idx) :
    ∃ pc ∈ (kernelRunA c i arg2 harg2 arg3 harg3 arg4 harg4 arg5 harg5 hc1 hc2 x0 x1).1, y ∈ pc.1.set :=
  View.cover_of_tiledL (kernelRunA c i arg2 harg2 arg3 harg3 arg4 harg4 arg5 harg5 hc1 hc2 x0 x1).1 S1x1x512.size (by sl_kernel_rfl) y
/-- and those into the second's cover it. -/
theorem coverA_3 (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (x0 : Vec F S1x3x512 .f32) (x1 : Vec F S1x3x4096 .f32) (y : S1x1x4096.Idx) :
    ∃ pc ∈ (kernelRunA c i arg2 harg2 arg3 harg3 arg4 harg4 arg5 harg5 hc1 hc2 x0 x1).2.1, y ∈ pc.1.set :=
  View.cover_of_tiledL (kernelRunA c i arg2 harg2 arg3 harg3 arg4 harg4 arg5 harg5 hc1 hc2 x0 x1).2.1 S1x1x4096.size (by sl_kernel_rfl) y
/-- The same at a later tile. -/
theorem coverB_2 (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (x0 : Vec F S1x3x512 .f32) (x1 : Vec F S1x3x4096 .f32) (xo3 : Vec F S1x1x4096 .f32) (y : S1x1x512.Idx) :
    ∃ pc ∈ (kernelRunB c i arg2 harg2 arg3 harg3 arg4 harg4 arg5 harg5 hc1 hc2 x0 x1 xo3).1, y ∈ pc.1.set :=
  View.cover_of_tiledL (kernelRunB c i arg2 harg2 arg3 harg3 arg4 harg4 arg5 harg5 hc1 hc2 x0 x1 xo3).1 S1x1x512.size (by sl_kernel_rfl) y
theorem coverB_3 (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (x0 : Vec F S1x3x512 .f32) (x1 : Vec F S1x3x4096 .f32) (xo3 : Vec F S1x1x4096 .f32) (y : S1x1x4096.Idx) :
    ∃ pc ∈ (kernelRunB c i arg2 harg2 arg3 harg3 arg4 harg4 arg5 harg5 hc1 hc2 x0 x1 xo3).2.1, y ∈ pc.1.set :=
  View.cover_of_tiledL (kernelRunB c i arg2 harg2 arg3 harg3 arg4 harg4 arg5 harg5 hc1 hc2 x0 x1 xo3).2.1 S1x1x4096.size (by sl_kernel_rfl) y

/-- What tile 0's body leaves in the first result's buffer: its stores read back. -/
def outA_2 (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (x0 : Vec F S1x3x512 .f32) (x1 : Vec F S1x3x4096 .f32) : Vec F S1x1x512 .f32 :=
  VO2.read (Elt F) (VO2.writes (Elt F) VO2.junk (kernelRunA c i arg2 harg2 arg3 harg3 arg4 harg4 arg5 harg5 hc1 hc2 x0 x1).1)
/-- And in the second's. -/
def outA_3 (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (x0 : Vec F S1x3x512 .f32) (x1 : Vec F S1x3x4096 .f32) : Vec F S1x1x4096 .f32 :=
  VO3.read (Elt F) (VO3.writes (Elt F) VO3.junk (kernelRunA c i arg2 harg2 arg3 harg3 arg4 harg4 arg5 harg5 hc1 hc2 x0 x1).2.1)
/-- What a later tile's body leaves in the first result's buffer, -/
def outB_2 (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (x0 : Vec F S1x3x512 .f32) (x1 : Vec F S1x3x4096 .f32) (xo3 : Vec F S1x1x4096 .f32) : Vec F S1x1x512 .f32 :=
  VO2.read (Elt F) (VO2.writes (Elt F) VO2.junk (kernelRunB c i arg2 harg2 arg3 harg3 arg4 harg4 arg5 harg5 hc1 hc2 x0 x1 xo3).1)
/-- and in the second's, over what that buffer held. -/
def outB_3 (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (x0 : Vec F S1x3x512 .f32) (x1 : Vec F S1x3x4096 .f32) (xo3 : Vec F S1x1x4096 .f32) : Vec F S1x1x4096 .f32 :=
  VO3.read (Elt F) (VO3.writes (Elt F) VO3.junk (kernelRunB c i arg2 harg2 arg3 harg3 arg4 harg4 arg5 harg5 hc1 hc2 x0 x1 xo3).2.1)

/-! ## The results' buffers after each point -/

/-- THE CARRIED MINIMUM. What the second result's buffer holds after the body at position `n`: tile 0's store at a
    point divisible by 8, else the later tile's store over what position `n - 1` left. -/
def out3At (c : Dev nD) : (n : ℕ) → n < cfg0.N → Vec F S1x1x4096 .f32
  | 0, hn => outA_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((hcond1 ⟨0, hn⟩).mpr (Nat.zero_mod _)) (fun h => (hcond2 ⟨0, hn⟩).mp h (Nat.zero_mod _)) (iblk m c 0 ⟨0, hn⟩) (iblk m c 1 ⟨0, hn⟩)
  | n + 1, hn =>
    if h0 : (n + 1) % 8 = 0 then
      outA_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        ((hcond1 ⟨n + 1, hn⟩).mpr h0) (fun h => (hcond2 ⟨n + 1, hn⟩).mp h h0) (iblk m c 0 ⟨n + 1, hn⟩) (iblk m c 1 ⟨n + 1, hn⟩)
    else
      outB_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (fun h => h0 ((hcond1 ⟨n + 1, hn⟩).mp h)) ((hcond2 ⟨n + 1, hn⟩).mpr h0) (iblk m c 0 ⟨n + 1, hn⟩) (iblk m c 1 ⟨n + 1, hn⟩)
        (out3At c n (Nat.lt_of_succ_lt hn))

/-- At a point of tile 0: that case's store. -/
theorem out3At_A (c : Dev nD) (t : Fin cfg0.N) (h0 : t.val % 8 = 0) :
    out3At m c t.val t.isLt = outA_3 c (grid0.coords t) (ms0 t) (hs0 t) (ms1 t) (hs1 t) (ms2 t) (hs2 t) (ms3 t) (hs3 t)
      ((hcond1 t).mpr h0) (fun h => (hcond2 t).mp h h0) (iblk m c 0 t) (iblk m c 1 t) := by
  obtain ⟨n, hn⟩ := t
  cases n with
  | zero => exact rfl
  | succ n => exact (dif_pos h0).trans rfl

/-- At a point of a later tile: that case's store over what the point before left. -/
theorem out3At_B (c : Dev nD) (t : Fin cfg0.N) (h0 : ¬t.val % 8 = 0) :
    out3At m c t.val t.isLt = outB_3 c (grid0.coords t) (ms0 t) (hs0 t) (ms1 t) (hs1 t) (ms2 t) (hs2 t) (ms3 t) (hs3 t)
      (fun h => h0 ((hcond1 t).mp h)) ((hcond2 t).mpr h0) (iblk m c 0 t) (iblk m c 1 t)
      (out3At m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the first result's buffer holds after the body at point `t`: its case's store. -/
def out2At (c : Dev nD) (t : Fin cfg0.N) : Vec F S1x1x512 .f32 :=
  if h0 : t.val % 8 = 0 then
    outA_2 c (grid0.coords t) (ms0 t) (hs0 t) (ms1 t) (hs1 t) (ms2 t) (hs2 t) (ms3 t) (hs3 t) ((hcond1 t).mpr h0) (fun h => (hcond2 t).mp h h0) (iblk m c 0 t) (iblk m c 1 t)
  else
    outB_2 c (grid0.coords t) (ms0 t) (hs0 t) (ms1 t) (hs1 t) (ms2 t) (hs2 t) (ms3 t) (hs3 t) (fun h => h0 ((hcond1 t).mp h)) ((hcond2 t).mpr h0) (iblk m c 0 t) (iblk m c 1 t)
      (out3At m c (t.val - 1) (Nat.lt_of_le_of_lt (Nat.sub_le _ _) t.isLt))

theorem out2At_A (c : Dev nD) (t : Fin cfg0.N) (h0 : t.val % 8 = 0) :
    out2At m c t = outA_2 c (grid0.coords t) (ms0 t) (hs0 t) (ms1 t) (hs1 t) (ms2 t) (hs2 t) (ms3 t) (hs3 t) ((hcond1 t).mpr h0) (fun h => (hcond2 t).mp h h0) (iblk m c 0 t) (iblk m c 1 t) :=
  dif_pos h0
theorem out2At_B (c : Dev nD) (t : Fin cfg0.N) (h0 : ¬t.val % 8 = 0) :
    out2At m c t = outB_2 c (grid0.coords t) (ms0 t) (hs0 t) (ms1 t) (hs1 t) (ms2 t) (hs2 t) (ms3 t) (hs3 t) (fun h => h0 ((hcond1 t).mp h)) ((hcond2 t).mpr h0) (iblk m c 0 t) (iblk m c 1 t)
      (out3At m c (t.val - 1) (Nat.lt_of_le_of_lt (Nat.sub_le _ _) t.isLt)) :=
  dif_neg h0

/-! ## The pipeline's proof data -/

/-- The proof data of the one pipeline on core `c`: the arrays as the region finds them; after the body at point `t`
    each input's buffer at its block and the results' at `out2At`, `out3At`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2At m c t
    | ⟨3, _⟩ => out3At m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2At m c t := by dsimp only [dats]
theorem after0_3 (c : Dev nD) (t : Fin cfg0.N) : (dats m 0 c).after 3 t = out3At m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Exactly one of the body's two conditions holds at every coordinate, so the second result's window is never idle. -/
theorem live3 (i : cfg0.grid.Coords) : cfg0.idle 3 i = false := by
  show (!(k0_cond1 i == 1#1) && !(k0_cond2 i == 1#1)) = false
  unfold k0_cond1 k0_cond2
  have h : (i 1).val < 8 := (i 1).isLt
  generalize (i 1).val = v at h ⊢
  have hv : v = 0 ∨ v = 1 ∨ v = 2 ∨ v = 3 ∨ v = 4 ∨ v = 5 ∨ v = 6 ∨ v = 7 := by omega
  rcases hv with rfl | rfl | rfl | rfl | rfl | rfl | rfl | rfl <;> decide

/-- At a point of a later tile the second result's current staging buffer holds what the body left at the point
    before: the point is not the first, and the buffer was not written back between (it is only after a batch's last
    tile). -/
theorem before0_3_B (c : Dev nD) (t : Fin cfg0.N) (h0 : ¬t.val % 8 = 0) (d) :
    (dats m 0 c).before 3 t d = out3At m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (live3) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the point is of tile 0 or of a later tile, and at a
    later tile the second result's buffer holds what the point before left; so that case's run applies; the invariant
    passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 8 = 0
  · rw [out2At_A m c t h0, out3At_A m c t h0]
    unfold outA_2 outA_3
    iintro ⟨HΦ, Ho, ⟨%d0, H0⟩, ⟨%d1, H1⟩, ⟨%d2, H2⟩, ⟨%d3, H3⟩⟩
    iapply ((kernelRunA c (grid0.coords t) _ _ _ _ _ _ _ _ ((hcond1 t).mpr h0) (fun h => (hcond2 t).mp h h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA_2 c _ _ _ _ _ _ _ _ _ _ _ _ _)
    unfold owns; iexists _; isplitr
    swap; · iexact H3
    ipureintro; exact View.read_writes_of_cover _ _ _ _ _ (coverA_3 c _ _ _ _ _ _ _ _ _ _ _ _ _)
  · rw [out2At_B m c t h0, out3At_B m c t h0]
    simp only [before0_3_B m c t h0]
    unfold outB_2 outB_3
    iintro ⟨HΦ, Ho, ⟨%d0, H0⟩, ⟨%d1, H1⟩, ⟨%d2, H2⟩, ⟨%d3, H3⟩⟩
    iapply ((kernelRunB c (grid0.coords t) _ _ _ _ _ _ _ _ (fun h => h0 ((hcond1 t).mp h)) ((hcond2 t).mpr h0) (iblk m c 0 t) (iblk m c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverB_2 c _ _ _ _ _ _ _ _ _ _ _ _ _ _)
    unfold owns; iexists _; isplitr
    swap; · iexact H3
    ipureintro; exact View.read_writes_of_cover _ _ _ _ _ (coverB_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [show cfg0.idle 3 (cfg0.grid.coords t) = false from live3 _]
  exact sound_body m c t

/-! ## The run and the frame -/

set_option backward.isDefEq.respectTransparency.types false in
/-- For any values, from any memory with zero counters: every weakly fair execution of the program terminates, and
    every final state has every array of the pipeline at what the proof data say and every other unscoped buffer as
    the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs, faults nowhere, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyIdealBase.lean ====
/-
  The kernel body of the distance kernel, on any staging buffers: what the two cases of its conditionals share.

  The grid is 4 batches by 8 tiles of 512 points. The body's first conditional ("this is tile 0") stores the
  tile's column minima into the second result's buffer; its second ("this is a later tile") stores their minimum
  against what the buffer holds. Exactly one of the two holds at every grid point: the first at the points
  divisible by 8, the second at the others.
-/
import proofs.«108670_j85564338471044_1_alg».proof.Proof.Gen.KernelIdeal.Frame
import proofs.«108670_j85564338471044_1_alg».proof.Proof.Gen.KernelIdeal.Skeleton
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is tile 0" holds at the grid points divisible by 8 — decided over the 32 points. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- "This is a later tile" holds at the others. -/
theorem hcond2 : ∀ t : Fin cfg0.N, k0_cond2 (grid0.coords t) = 1#1 ↔ ¬t.val % 8 = 0 :=
  (by decide +kernel : ∀ t : Fin grid0.N, k0_cond2 (grid0.coords t) = 1#1 ↔ ¬t.val % 8 = 0)

/-- One staging buffer of each result window, through which its contents are stated. -/
abbrev VO2 : View sig .tc .vmem S1x1x512 .f32 := (Memref.whole cc0_stg2_0 : Memref sig .tc .vmem S1x1x512 .f32).view
abbrev VO3 : View sig .tc .vmem S1x1x4096 .f32 := (Memref.whole cc0_stg3_0 : Memref sig .tc .vmem S1x1x4096 .f32).view

/-- Each window's current staging buffer at point `t`, as the pipeline passes it to the body, and its wholeness. -/
abbrev ms0 (t : Fin cfg0.N) : Memref sig .tc .vmem S1x3x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

end Cert.KernelIdeal.Body

end
-- ==== Proof.BodyIdealRunA.lean ====
/-
  The kernel body at a point of tile 0: from the two input blocks it stores the tile's row minima into the first
  result's buffer and the tile's column minima into the second's, whatever either held.
-/
import proofs.«108670_j85564338471044_1_alg».proof.Proof.BodyIdealBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where "this is tile 0" holds and "this is a later tile" does not: on whole staging buffers, the inputs'
    at their contents and the results' at anything, the body runs to a continuation that holds the inputs' as they
    were and each result's buffer with the body's stores written (the pieces, last first, are what the run finds). -/
noncomputable def kernelRunA (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1)
    (x0 : Vec F S1x3x512 .f32) (x1 : Vec F S1x3x4096 .f32) :
    Σ' (L2 : List (View.Piece (Elt F) S1x1x512 .f32)) (L3 : List (View.Piece (Elt F) S1x1x4096 .f32)),
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Body

end
-- ==== Proof.BodyIdealRunB.lean ====
/-
  The kernel body at a point of a later tile: from the two input blocks and what the second result's buffer holds it
  stores the tile's row minima into the first result's buffer, and into the second's the minimum of what it held and
  the tile's column minima.
-/
import proofs.«108670_j85564338471044_1_alg».proof.Proof.BodyIdealBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where "this is a later tile" holds and "this is tile 0" does not: on whole staging buffers, the inputs'
    at their contents, the first result's at anything and the second's at its running contents `xo3`, the body runs
    to a continuation that holds the inputs' as they were and each result's buffer with the body's stores written. -/
noncomputable def kernelRunB (c : Dev nD) (i : grid0.Coords)
    (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1)
    (x0 : Vec F S1x3x512 .f32) (x1 : Vec F S1x3x4096 .f32) (xo3 : Vec F S1x1x4096 .f32) :
    Σ' (L2 : List (View.Piece (Elt F) S1x1x512 .f32)) (L3 : List (View.Piece (Elt F) S1x1x4096 .f32)),
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Body

end
-- ==== Proof.BodyIdealFrame.lean ====
/-
  The frame of the distance kernel's program: the pipeline's proof data, the body at every grid point, and the run.

  After the body at a point, the first result's buffer holds what that point's case stored (it is written back at
  every point); the second result's buffer holds the case's store as well, but it is carried from tile to tile of a
  batch and written back only after the batch's last tile, so at a later tile the body finds in it what the tile
  before left: its contents are defined by recursion on the point.
-/
import proofs.«108670_j85564338471044_1_alg».proof.Proof.BodyIdealRunA
import proofs.«108670_j85564338471044_1_alg».proof.Proof.BodyIdealRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the results' buffers -/

/-- At tile 0 the stores into the first result's buffer cover it, -/
theorem coverA_2 (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (x0 : Vec F S1x3x512 .f32) (x1 : Vec F S1x3x4096 .f32) (y : S1x1x512.Idx) :
    ∃ pc ∈ (kernelRunA c i arg2 harg2 arg3 harg3 arg4 harg4 arg5 harg5 hc1 hc2 x0 x1).1, y ∈ pc.1.set :=
  View.cover_of_tiledL (kernelRunA c i arg2 harg2 arg3 harg3 arg4 harg4 arg5 harg5 hc1 hc2 x0 x1).1 S1x1x512.size (by sl_kernel_rfl) y
/-- and those into the second's cover it. -/
theorem coverA_3 (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (x0 : Vec F S1x3x512 .f32) (x1 : Vec F S1x3x4096 .f32) (y : S1x1x4096.Idx) :
    ∃ pc ∈ (kernelRunA c i arg2 harg2 arg3 harg3 arg4 harg4 arg5 harg5 hc1 hc2 x0 x1).2.1, y ∈ pc.1.set :=
  View.cover_of_tiledL (kernelRunA c i arg2 harg2 arg3 harg3 arg4 harg4 arg5 harg5 hc1 hc2 x0 x1).2.1 S1x1x4096.size (by sl_kernel_rfl) y
/-- The same at a later tile. -/
theorem coverB_2 (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (x0 : Vec F S1x3x512 .f32) (x1 : Vec F S1x3x4096 .f32) (xo3 : Vec F S1x1x4096 .f32) (y : S1x1x512.Idx) :
    ∃ pc ∈ (kernelRunB c i arg2 harg2 arg3 harg3 arg4 harg4 arg5 harg5 hc1 hc2 x0 x1 xo3).1, y ∈ pc.1.set :=
  View.cover_of_tiledL (kernelRunB c i arg2 harg2 arg3 harg3 arg4 harg4 arg5 harg5 hc1 hc2 x0 x1 xo3).1 S1x1x512.size (by sl_kernel_rfl) y
theorem coverB_3 (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (x0 : Vec F S1x3x512 .f32) (x1 : Vec F S1x3x4096 .f32) (xo3 : Vec F S1x1x4096 .f32) (y : S1x1x4096.Idx) :
    ∃ pc ∈ (kernelRunB c i arg2 harg2 arg3 harg3 arg4 harg4 arg5 harg5 hc1 hc2 x0 x1 xo3).2.1, y ∈ pc.1.set :=
  View.cover_of_tiledL (kernelRunB c i arg2 harg2 arg3 harg3 arg4 harg4 arg5 harg5 hc1 hc2 x0 x1 xo3).2.1 S1x1x4096.size (by sl_kernel_rfl) y

/-- What tile 0's body leaves in the first result's buffer: its stores read back. -/
def outA_2 (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (x0 : Vec F S1x3x512 .f32) (x1 : Vec F S1x3x4096 .f32) : Vec F S1x1x512 .f32 :=
  VO2.read (Elt F) (VO2.writes (Elt F) VO2.junk (kernelRunA c i arg2 harg2 arg3 harg3 arg4 harg4 arg5 harg5 hc1 hc2 x0 x1).1)
/-- And in the second's. -/
def outA_3 (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (x0 : Vec F S1x3x512 .f32) (x1 : Vec F S1x3x4096 .f32) : Vec F S1x1x4096 .f32 :=
  VO3.read (Elt F) (VO3.writes (Elt F) VO3.junk (kernelRunA c i arg2 harg2 arg3 harg3 arg4 harg4 arg5 harg5 hc1 hc2 x0 x1).2.1)
/-- What a later tile's body leaves in the first result's buffer, -/
def outB_2 (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (x0 : Vec F S1x3x512 .f32) (x1 : Vec F S1x3x4096 .f32) (xo3 : Vec F S1x1x4096 .f32) : Vec F S1x1x512 .f32 :=
  VO2.read (Elt F) (VO2.writes (Elt F) VO2.junk (kernelRunB c i arg2 harg2 arg3 harg3 arg4 harg4 arg5 harg5 hc1 hc2 x0 x1 xo3).1)
/-- and in the second's, over what that buffer held. -/
def outB_3 (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (x0 : Vec F S1x3x512 .f32) (x1 : Vec F S1x3x4096 .f32) (xo3 : Vec F S1x1x4096 .f32) : Vec F S1x1x4096 .f32 :=
  VO3.read (Elt F) (VO3.writes (Elt F) VO3.junk (kernelRunB c i arg2 harg2 arg3 harg3 arg4 harg4 arg5 harg5 hc1 hc2 x0 x1 xo3).2.1)

/-! ## The results' buffers after each point -/

/-- THE CARRIED MINIMUM. What the second result's buffer holds after the body at position `n`: tile 0's store at a
    point divisible by 8, else the later tile's store over what position `n - 1` left. -/
def out3At (c : Dev nD) : (n : ℕ) → n < cfg0.N → Vec F S1x1x4096 .f32
  | 0, hn => outA_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((hcond1 ⟨0, hn⟩).mpr (Nat.zero_mod _)) (fun h => (hcond2 ⟨0, hn⟩).mp h (Nat.zero_mod _)) (iblk m c 0 ⟨0, hn⟩) (iblk m c 1 ⟨0, hn⟩)
  | n + 1, hn =>
    if h0 : (n + 1) % 8 = 0 then
      outA_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        ((hcond1 ⟨n + 1, hn⟩).mpr h0) (fun h => (hcond2 ⟨n + 1, hn⟩).mp h h0) (iblk m c 0 ⟨n + 1, hn⟩) (iblk m c 1 ⟨n + 1, hn⟩)
    else
      outB_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (fun h => h0 ((hcond1 ⟨n + 1, hn⟩).mp h)) ((hcond2 ⟨n + 1, hn⟩).mpr h0) (iblk m c 0 ⟨n + 1, hn⟩) (iblk m c 1 ⟨n + 1, hn⟩)
        (out3At c n (Nat.lt_of_succ_lt hn))

/-- At a point of tile 0: that case's store. -/
theorem out3At_A (c : Dev nD) (t : Fin cfg0.N) (h0 : t.val % 8 = 0) :
    out3At m c t.val t.isLt = outA_3 c (grid0.coords t) (ms0 t) (hs0 t) (ms1 t) (hs1 t) (ms2 t) (hs2 t) (ms3 t) (hs3 t)
      ((hcond1 t).mpr h0) (fun h => (hcond2 t).mp h h0) (iblk m c 0 t) (iblk m c 1 t) := by
  obtain ⟨n, hn⟩ := t
  cases n with
  | zero => exact rfl
  | succ n => exact (dif_pos h0).trans rfl

/-- At a point of a later tile: that case's store over what the point before left. -/
theorem out3At_B (c : Dev nD) (t : Fin cfg0.N) (h0 : ¬t.val % 8 = 0) :
    out3At m c t.val t.isLt = outB_3 c (grid0.coords t) (ms0 t) (hs0 t) (ms1 t) (hs1 t) (ms2 t) (hs2 t) (ms3 t) (hs3 t)
      (fun h => h0 ((hcond1 t).mp h)) ((hcond2 t).mpr h0) (iblk m c 0 t) (iblk m c 1 t)
      (out3At m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the first result's buffer holds after the body at point `t`: its case's store. -/
def out2At (c : Dev nD) (t : Fin cfg0.N) : Vec F S1x1x512 .f32 :=
  if h0 : t.val % 8 = 0 then
    outA_2 c (grid0.coords t) (ms0 t) (hs0 t) (ms1 t) (hs1 t) (ms2 t) (hs2 t) (ms3 t) (hs3 t) ((hcond1 t).mpr h0) (fun h => (hcond2 t).mp h h0) (iblk m c 0 t) (iblk m c 1 t)
  else
    outB_2 c (grid0.coords t) (ms0 t) (hs0 t) (ms1 t) (hs1 t) (ms2 t) (hs2 t) (ms3 t) (hs3 t) (fun h => h0 ((hcond1 t).mp h)) ((hcond2 t).mpr h0) (iblk m c 0 t) (iblk m c 1 t)
      (out3At m c (t.val - 1) (Nat.lt_of_le_of_lt (Nat.sub_le _ _) t.isLt))

theorem out2At_A (c : Dev nD) (t : Fin cfg0.N) (h0 : t.val % 8 = 0) :
    out2At m c t = outA_2 c (grid0.coords t) (ms0 t) (hs0 t) (ms1 t) (hs1 t) (ms2 t) (hs2 t) (ms3 t) (hs3 t) ((hcond1 t).mpr h0) (fun h => (hcond2 t).mp h h0) (iblk m c 0 t) (iblk m c 1 t) :=
  dif_pos h0
theorem out2At_B (c : Dev nD) (t : Fin cfg0.N) (h0 : ¬t.val % 8 = 0) :
    out2At m c t = outB_2 c (grid0.coords t) (ms0 t) (hs0 t) (ms1 t) (hs1 t) (ms2 t) (hs2 t) (ms3 t) (hs3 t) (fun h => h0 ((hcond1 t).mp h)) ((hcond2 t).mpr h0) (iblk m c 0 t) (iblk m c 1 t)
      (out3At m c (t.val - 1) (Nat.lt_of_le_of_lt (Nat.sub_le _ _) t.isLt)) :=
  dif_neg h0

/-! ## The pipeline's proof data -/

/-- The proof data of the one pipeline on core `c`: the arrays as the region finds them; after the body at point `t`
    each input's buffer at its block and the results' at `out2At`, `out3At`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2At m c t
    | ⟨3, _⟩ => out3At m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2At m c t := by dsimp only [dats]
theorem after0_3 (c : Dev nD) (t : Fin cfg0.N) : (dats m 0 c).after 3 t = out3At m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Exactly one of the body's two conditions holds at every coordinate, so the second result's window is never idle. -/
theorem live3 (i : cfg0.grid.Coords) : cfg0.idle 3 i = false := by
  show (!(k0_cond1 i == 1#1) && !(k0_cond2 i == 1#1)) = false
  unfold k0_cond1 k0_cond2
  have h : (i 1).val < 8 := (i 1).isLt
  generalize (i 1).val = v at h ⊢
  have hv : v = 0 ∨ v = 1 ∨ v = 2 ∨ v = 3 ∨ v = 4 ∨ v = 5 ∨ v = 6 ∨ v = 7 := by omega
  rcases hv with rfl | rfl | rfl | rfl | rfl | rfl | rfl | rfl <;> decide

/-- At a point of a later tile the second result's current staging buffer holds what the body left at the point
    before: the point is not the first, and the buffer was not written back between (it is only after a batch's last
    tile). -/
theorem before0_3_B (c : Dev nD) (t : Fin cfg0.N) (h0 : ¬t.val % 8 = 0) (d) :
    (dats m 0 c).before 3 t d = out3At m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (live3) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the point is of tile 0 or of a later tile, and at a
    later tile the second result's buffer holds what the point before left; so that case's run applies; the invariant
    passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 8 = 0
  · rw [out2At_A m c t h0, out3At_A m c t h0]
    unfold outA_2 outA_3
    iintro ⟨HΦ, Ho, ⟨%d0, H0⟩, ⟨%d1, H1⟩, ⟨%d2, H2⟩, ⟨%d3, H3⟩⟩
    iapply ((kernelRunA c (grid0.coords t) _ _ _ _ _ _ _ _ ((hcond1 t).mpr h0) (fun h => (hcond2 t).mp h h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA_2 c _ _ _ _ _ _ _ _ _ _ _ _ _)
    unfold owns; iexists _; isplitr
    swap; · iexact H3
    ipureintro; exact View.read_writes_of_cover _ _ _ _ _ (coverA_3 c _ _ _ _ _ _ _ _ _ _ _ _ _)
  · rw [out2At_B m c t h0, out3At_B m c t h0]
    simp only [before0_3_B m c t h0]
    unfold outB_2 outB_3
    iintro ⟨HΦ, Ho, ⟨%d0, H0⟩, ⟨%d1, H1⟩, ⟨%d2, H2⟩, ⟨%d3, H3⟩⟩
    iapply ((kernelRunB c (grid0.coords t) _ _ _ _ _ _ _ _ (fun h => h0 ((hcond1 t).mp h)) ((hcond2 t).mpr h0) (iblk m c 0 t) (iblk m c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverB_2 c _ _ _ _ _ _ _ _ _ _ _ _ _ _)
    unfold owns; iexists _; isplitr
    swap; · iexact H3
    ipureintro; exact View.read_writes_of_cover _ _ _ _ _ (coverB_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [show cfg0.idle 3 (cfg0.grid.coords t) = false from live3 _]
  exact sound_body m c t

/-! ## The run and the frame -/

set_option backward.isDefEq.respectTransparency.types false in
/-- For any values, from any memory with zero counters: every weakly fair execution of the program terminates, and
    every final state has every array of the pipeline at what the proof data say and every other unscoped buffer as
    the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs, faults nowhere, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KCases.lean ====
/-
  What each case of the kernel body leaves in the two results' buffers, as values of the input blocks.

  The body reads the three coordinate rows of its block of 512 points of the first cloud and of its block of 4096
  points of the second, forms the 512 x 4096 matrix of Manhattan distances between them (`tileD`), stores the matrix's
  row minima into the first result's buffer (`tileRowMin`), and into the second's the column minima — at tile 0 as
  they are, at a later tile taken against what the buffer held.
-/
import proofs.«108670_j85564338471044_1_alg».proof.Proof.BodyIdealFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

/-- The tile's matrix of distances, from the two input blocks: the body's sum of three absolute differences of the
    blocks' coordinate rows. -/
def tileD (x0 : Vec F S1x3x512 .f32) (x1 : Vec F S1x3x4096 .f32) : FVec F S512x4096 .f32 :=
  k0_pay4 (View.ld x0 (Rect.unit (s := S1x3x512) ![0, 0, 0] S1x1x512.size inb_S1x3x512_S1x1x512_0_0_0))
    (View.ld x0 (Rect.unit (s := S1x3x512) ![0, 1, 0] S1x1x512.size inb_S1x3x512_S1x1x512_0_1_0))
    (View.ld x0 (Rect.unit (s := S1x3x512) ![0, 2, 0] S1x1x512.size inb_S1x3x512_S1x1x512_0_2_0))
    (View.ld x1 (Rect.unit (s := S1x3x4096) ![0, 0, 0] S1x1x4096.size inb_S1x3x4096_S1x1x4096_0_0_0))
    (View.ld x1 (Rect.unit (s := S1x3x4096) ![0, 1, 0] S1x1x4096.size inb_S1x3x4096_S1x1x4096_0_1_0))
    (View.ld x1 (Rect.unit (s := S1x3x4096) ![0, 2, 0] S1x1x4096.size inb_S1x3x4096_S1x1x4096_0_2_0))

/-- Its row minima, as the body stores them. -/
def tileRowMin (x0 : Vec F S1x3x512 .f32) (x1 : Vec F S1x3x4096 .f32) : FVec F S1x1x512 .f32 :=
  k0_pay5 (View.ld x0 (Rect.unit (s := S1x3x512) ![0, 0, 0] S1x1x512.size inb_S1x3x512_S1x1x512_0_0_0))
    (View.ld x0 (Rect.unit (s := S1x3x512) ![0, 1, 0] S1x1x512.size inb_S1x3x512_S1x1x512_0_1_0))
    (View.ld x0 (Rect.unit (s := S1x3x512) ![0, 2, 0] S1x1x512.size inb_S1x3x512_S1x1x512_0_2_0))
    (View.ld x1 (Rect.unit (s := S1x3x4096) ![0, 0, 0] S1x1x4096.size inb_S1x3x4096_S1x1x4096_0_0_0))
    (View.ld x1 (Rect.unit (s := S1x3x4096) ![0, 1, 0] S1x1x4096.size inb_S1x3x4096_S1x1x4096_0_1_0))
    (View.ld x1 (Rect.unit (s := S1x3x4096) ![0, 2, 0] S1x1x4096.size inb_S1x3x4096_S1x1x4096_0_2_0))

/-- Tile 0 leaves the row minima in the first result's buffer: its one covering store's payload. -/
theorem outA_2_eq (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (x0 : Vec F S1x3x512 .f32) (x1 : Vec F S1x3x4096 .f32) :
    outA_2 c i arg2 harg2 arg3 harg3 arg4 harg4 arg5 harg5 hc1 hc2 x0 x1 = tileRowMin x0 x1 := by
  unfold outA_2 tileRowMin
  rw [View.read_writes_eq_canon _ _ _ (coverA_2 c i arg2 harg2 arg3 harg3 arg4 harg4 arg5 harg5 hc1 hc2 x0 x1)]
  unfold kernelRunA
  dsimp only
  sl_unfold_words
  rw [View.canon_unit_zero hz3]
  simp only [View.readAt_eq_ld, harg2.read_unread, harg3.read_unread] <;> rfl

/-- Tile 0 leaves the column minima in the second result's buffer. -/
theorem outA_3_eq (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : k0_cond1 i = 1#1) (hc2 : ¬k0_cond2 i = 1#1) (x0 : Vec F S1x3x512 .f32) (x1 : Vec F S1x3x4096 .f32) :
    outA_3 c i arg2 harg2 arg3 harg3 arg4 harg4 arg5 harg5 hc1 hc2 x0 x1 = k0_pay2 (tileD x0 x1) := by
  unfold outA_3 tileD
  rw [View.read_writes_eq_canon _ _ _ (coverA_3 c i arg2 harg2 arg3 harg3 arg4 harg4 arg5 harg5 hc1 hc2 x0 x1)]
  unfold kernelRunA
  dsimp only
  sl_unfold_words
  rw [View.canon_unit_zero hz3]
  simp only [View.readAt_eq_ld, harg2.read_unread, harg3.read_unread] <;> rfl

/-- A later tile leaves the row minima in the first result's buffer, -/
theorem outB_2_eq (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (x0 : Vec F S1x3x512 .f32) (x1 : Vec F S1x3x4096 .f32) (xo3 : Vec F S1x1x4096 .f32) :
    outB_2 c i arg2 harg2 arg3 harg3 arg4 harg4 arg5 harg5 hc1 hc2 x0 x1 xo3 = tileRowMin x0 x1 := by
  unfold outB_2 tileRowMin
  rw [View.read_writes_eq_canon _ _ _ (coverB_2 c i arg2 harg2 arg3 harg3 arg4 harg4 arg5 harg5 hc1 hc2 x0 x1 xo3)]
  unfold kernelRunB
  dsimp only
  sl_unfold_words
  rw [View.canon_unit_zero hz3]
  simp only [View.readAt_eq_ld, harg2.read_unread, harg3.read_unread, harg5.read_unread] <;> rfl

/-- and in the second's the column minima taken against what it held. -/
theorem outB_3_eq (c : Dev nD) (i : grid0.Coords) (arg2 : Memref sig .tc .vmem S1x3x512 .f32) (harg2 : arg2.IsWhole) (arg3 : Memref sig .tc .vmem S1x3x4096 .f32) (harg3 : arg3.IsWhole)
    (arg4 : Memref sig .tc .vmem S1x1x512 .f32) (harg4 : arg4.IsWhole) (arg5 : Memref sig .tc .vmem S1x1x4096 .f32) (harg5 : arg5.IsWhole)
    (hc1 : ¬k0_cond1 i = 1#1) (hc2 : k0_cond2 i = 1#1) (x0 : Vec F S1x3x512 .f32) (x1 : Vec F S1x3x4096 .f32) (xo3 : Vec F S1x1x4096 .f32) :
    outB_3 c i arg2 harg2 arg3 harg3 arg4 harg4 arg5 harg5 hc1 hc2 x0 x1 xo3 = k0_pay3 (tileD x0 x1) xo3 := by
  unfold outB_3 tileD
  rw [View.read_writes_eq_canon _ _ _ (coverB_3 c i arg2 harg2 arg3 harg3 arg4 harg4 arg5 harg5 hc1 hc2 x0 x1 xo3)]
  unfold kernelRunB
  dsimp only
  sl_unfold_words
  rw [View.canon_unit_zero hz3]
  simp only [View.readAt_eq_ld, harg2.read_unread, harg3.read_unread, harg5.read_unread, View.ld_unit_zero (S := S1x1x4096) hz3] <;> rfl

end Cert.KernelIdeal.Body

end
-- ==== Proof.Chamfer.lean ====
/-
  The mathematics both programs compute, stated once and free of either program.

  For point clouds `p`, `g` of shape [4, 4096, 3] over the extended reals:
  * `gap p g b n m c` is the absolute difference `|p[b,n,c] - g[b,m,c]|`, spelt `max a (-a)`;
  * `dist p g b n m` is the Manhattan distance between point `n` of `p` and point `m` of `g` in batch `b`,
    the three gaps added left to right;
  * `nearX p g` at `(b, n)` is the least distance from point `n` of `p` to any point of `g`;
  * `nearY p g` at `(b, m)` is the least distance from point `m` of `g` to any point of `p`;
  both minima are folds of `min` from the value `top` of the +infinity pattern.
  `tail X Y` is what both programs then do with the two [4, 4096] arrays: the mean of each row, the two
  means added, and the mean over the four batches.
-/
import Idealize.ShloMosaic.PureOps.Ideal
import Idealize.ShloMosaic.Lib.ValueIdx

noncomputable section

namespace Chamfer

open Idealize.ShloMosaic Idealize.ShloMosaic.ValueIdx

abbrev Pts : Shape := ⟨3, ![4, 4096, 3]⟩
abbrev Rows : Shape := ⟨2, ![4, 4096]⟩
abbrev Four : Shape := ⟨1, ![4]⟩
abbrev Unit0 : Shape := ⟨0, ![]⟩

/-- The value every minimum starts from: what the +infinity pattern denotes. -/
abbrev top : EReal := Ideal.ofBits .f32 0x7F800000#32

/-- `|p[b,n,c] - g[b,m,c]|`. -/
def gap (p g : Pts.Idx → EReal) (b : Fin 4) (n m : Fin 4096) (c : Fin 3) : EReal :=
  max (p (ix3 b n c) - g (ix3 b m c)) (-(p (ix3 b n c) - g (ix3 b m c)))

/-- The Manhattan distance between point `n` of `p` and point `m` of `g` in batch `b`. -/
def dist (p g : Pts.Idx → EReal) (b : Fin 4) (n m : Fin 4096) : EReal :=
  gap p g b n m 0 + gap p g b n m 1 + gap p g b n m 2

/-- The least distance from point `n` of `p` to the points of `g`, at coordinates. -/
def nearXAt (p g : Pts.Idx → EReal) (b : Fin 4) (n : Fin 4096) : EReal :=
  (Finset.univ : Finset (Fin 4096)).fold min top (fun m => dist p g b n m)

/-- The least distance from point `m` of `g` to the points of `p`, at coordinates. -/
def nearYAt (p g : Pts.Idx → EReal) (b : Fin 4) (m : Fin 4096) : EReal :=
  (Finset.univ : Finset (Fin 4096)).fold min top (fun n => dist p g b n m)

/-- The two arrays of least distances. -/
def nearX (p g : Pts.Idx → EReal) : Rows.Idx → EReal := fun j => nearXAt p g (j 0) (j 1)
def nearY (p g : Pts.Idx → EReal) : Rows.Idx → EReal := fun j => nearYAt p g (j 0) (j 1)

theorem nearX_ix2 (p g : Pts.Idx → EReal) (b : Fin 4) (n : Fin 4096) : nearX p g (ix2 b n) = nearXAt p g b n := rfl
theorem nearY_ix2 (p g : Pts.Idx → EReal) (b : Fin 4) (m : Fin 4096) : nearY p g (ix2 b m) = nearYAt p g b m := rfl

/-! ### The minimum over 4096 rows taken eight tiles of 512 at a time -/

/-- Row `r` of tile `k`. -/
def tileIdx (k : Fin 8) (r : Fin 512) : Fin 4096 := ⟨k.val * 512 + r.val, by omega⟩

/-- The least of `f` over tile `k`, from `I`. -/
def tileMin (I : EReal) (f : Fin 4096 → EReal) (k : Fin 8) : EReal :=
  (Finset.univ : Finset (Fin 512)).fold min I (fun r => f (tileIdx k r))

/-- The running minimum after tiles `0 … k`: tile 0's minimum, then each later tile's minimum taken against what
    the tiles before left. -/
def runMin (I : EReal) (f : Fin 4096 → EReal) : (k : ℕ) → k < 8 → EReal
  | 0, h => tileMin I f ⟨0, h⟩
  | k + 1, h => min (runMin I f k (Nat.lt_of_succ_lt h)) (tileMin I f ⟨k + 1, h⟩)

/-- What both programs do with the two arrays of least distances: each row's mean (its sum from zero, divided by
    4096), the two means added, and the mean of the four sums (their sum from zero, divided by 4). The shape facts
    are arguments: each program cites its own. -/
def tail (hr : Rows.ReducesTo [1] Four) (h0 : 0 < Unit0.numel) (hb : Unit0.BroadcastsInDim Four (![] : Fin 0 → Fin Four.rank))
    (hr0 : Four.ReducesTo [0] Unit0) (X Y : FVec Ideal Rows .f32) : FVec Ideal Unit0 .f32 :=
  Host.divf
    (Host.reduceAdd
      (addf
        (Host.divf (Host.reduceAdd X (constant (F := Ideal) Unit0 .f32 0x00000000#32) hr h0)
          (broadcastInDim Four ![] hb (constant (F := Ideal) Unit0 .f32 0x45800000#32)))
        (Host.divf (Host.reduceAdd Y (constant (F := Ideal) Unit0 .f32 0x00000000#32) hr h0)
          (broadcastInDim Four ![] hb (constant (F := Ideal) Unit0 .f32 0x45800000#32))))
      (constant (F := Ideal) Unit0 .f32 0x00000000#32) hr0 h0)
    (constant (F := Ideal) Unit0 .f32 0x40800000#32)

end Chamfer

end
-- ==== Proof.KDefs.lean ====
/-
  Names for a grid point's batch and tile, and for the two argument clouds.

  The 32 grid points run batch-major: point `t` is tile `t % 8` of batch `t / 8`.
-/
import proofs.«108670_j85564338471044_1_alg».proof.Proof.KCases
import proofs.«108670_j85564338471044_1_alg».proof.Proof.Chamfer

noncomputable section

namespace Cert.KernelIdeal.KValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

/-- The batch of grid point `t`. -/
def batchOf (t : Fin cfg0.N) : Fin 4 := ⟨t.val / 8, by have h : t.val < 32 := lt_of_lt_of_eq t.isLt (show cfg0.N = 32 from N_0); omega⟩
/-- The tile of grid point `t`. -/
def tileOf (t : Fin cfg0.N) : Fin 8 := ⟨t.val % 8, Nat.mod_lt _ (by decide)⟩

variable (m : (ℓ : Loc nD τ sig) → Buf (Elt Ideal) ℓ)

/-- The first argument cloud on core `c`, as launched. -/
abbrev cloudP (c : Dev nD) : Chamfer.Pts.Idx → EReal := m ((c.tc : Thread nD τ).loc main_arg0)
/-- The second. -/
abbrev cloudG (c : Dev nD) : Chamfer.Pts.Idx → EReal := m ((c.tc : Thread nD τ).loc main_arg1)

end Cert.KernelIdeal.KValue

end
-- ==== Proof.KBlocks.lean ====
/-
  What the kernel body's six row loads read at a grid point.

  The kernel works on the two clouds transposed: array `[4, 3, 4096]` holds at `(b, k, n)` coordinate `k` of point `n` of
  batch `b`. Grid point `t` (tile `t % 8` of batch `t / 8`) is handed the block `[1, 3, 512]` of the first transposed cloud at
  block index `(t / 8, 0, t % 8)` and the block `[1, 3, 4096]` of the second at block index `(t / 8, 0, 0)`. An element of
  a block sits in its array, on each axis, at the block index times the block's extent plus its own coordinate; so row `k`
  of the first block, at column `r`, is coordinate `k` of point `(t % 8) * 512 + r` of batch `t / 8` of the first cloud, and
  row `k` of the second block, at column `q`, is coordinate `k` of point `q` of batch `t / 8` of the second.
-/
import proofs.«108670_j85564338471044_1_alg».proof.Proof.KDefs
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The block indices over the grid, and the two transposed clouds -/

/-- The two input windows' block indices at grid point `t`: the first cloud's block moves with the batch `t / 8` on axis 0
    and with the tile `t % 8` on axis 2; the second's moves with the batch only. Decided once over the 32 points. -/
theorem blockIdx : ∀ t : Fin cfg0.N,
    win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = 0 ∧ win0_1.index t (2 : Fin 3) = 0 :=
  (by decide +kernel : ∀ t : Fin grid0.N, _)

/-- When the region is entered the first window's array is the first cloud with its last two axes exchanged. -/
theorem V_v0 (c : Dev nD) : (V m c main_v0 : S4x3x4096.Idx → EReal)
    = transpose S4x3x4096 [0, 2, 1] (m ((c.tc : Thread nD τ).loc main_arg0)) transposes_S4x4096x3_S4x3x4096_0_2_1 := by
  show StableHlo.after hostOps0 (fun b => m (c, b)) (Proc.devRef .tc main_v0) = _
  after_results

/-- And the second window's array is the second cloud with its last two axes exchanged. -/
theorem V_v1 (c : Dev nD) : (V m c main_v1 : S4x3x4096.Idx → EReal)
    = transpose S4x3x4096 [0, 2, 1] (m ((c.tc : Thread nD τ).loc main_arg1)) transposes_S4x4096x3_S4x3x4096_0_2_1 := by
  show StableHlo.after hostOps0 (fun b => m (c, b)) (Proc.devRef .tc main_v1) = _
  after_results

/-! ## A block's element as a coordinate of its cloud -/

/-- The first cloud's block at point `t`, at an index `y` with leading coordinate 0, row `k` and column `y 2`, is coordinate
    `k` of point `n = (t % 8) * 512 + y 2` of batch `t / 8`: the block's element sits in the transposed array at
    `(t / 8 * 1 + 0, 0 * 3 + k, (t % 8) * 512 + y 2)`, and the transposed array there is the cloud at `(t / 8, n, k)`. -/
theorem predBlock (c : Dev nD) (t : Fin cfg0.N) (y : S1x3x512.Idx) (n : Fin 4096) (k : Fin 3)
    (h0 : (y 0).val = 0) (h1 : (y 1).val = k.val) (h2 : n.val = (t.val % 8) * 512 + (y 2).val) :
    iblk m c 0 t y = cloudP m c (ix3 (batchOf t) n k) := by
  obtain ⟨e0, e1, e2, -, -, -⟩ := blockIdx t
  show V m c main_v0 (((cfg0.win 0).blk t).view.emb y) = _
  rw [V_v0]
  refine transpose_apply _ _ _ _ (ix3 (batchOf t) n k) ?_
  intro b
  match b with
  | ⟨0, _⟩ =>
    show t.val / 8 = win0_0.index t (0 : Fin 3) * 1 + 1 * (y 0).val
    omega
  | ⟨1, _⟩ =>
    show k.val = win0_0.index t (1 : Fin 3) * 3 + 1 * (y 1).val
    omega
  | ⟨2, _⟩ =>
    show n.val = win0_0.index t (2 : Fin 3) * 512 + 1 * (y 2).val
    omega

/-- The second cloud's block at point `t` is the whole of batch `t / 8`: at an index `y` with leading coordinate 0, row `k`
    and column `q` it is coordinate `k` of point `q` of that batch. -/
theorem gtBlock (c : Dev nD) (t : Fin cfg0.N) (y : S1x3x4096.Idx) (q : Fin 4096) (k : Fin 3)
    (h0 : (y 0).val = 0) (h1 : (y 1).val = k.val) (h2 : q.val = (y 2).val) :
    iblk m c 1 t y = cloudG m c (ix3 (batchOf t) q k) := by
  obtain ⟨-, -, -, e0, e1, e2⟩ := blockIdx t
  show V m c main_v1 (((cfg0.win 1).blk t).view.emb y) = _
  rw [V_v1]
  refine transpose_apply _ _ _ _ (ix3 (batchOf t) q k) ?_
  intro b
  match b with
  | ⟨0, _⟩ =>
    show t.val / 8 = win0_1.index t (0 : Fin 3) * 1 + 1 * (y 0).val
    omega
  | ⟨1, _⟩ =>
    show k.val = win0_1.index t (1 : Fin 3) * 3 + 1 * (y 1).val
    omega
  | ⟨2, _⟩ =>
    show q.val = win0_1.index t (2 : Fin 3) * 4096 + 1 * (y 2).val
    omega

/-! ## The six row loads

A load of the unit-stride rectangle at offsets `(0, k, 0)` of extents `[1, 1, ·]` reads, at `(0, 0, r)`, the block at
`(0 + 1 * 0, k + 1 * 0, 0 + 1 * r)`: row `k`, column `r`. -/

/-- Row 0 of the first cloud's block: the first coordinates of the tile's points. -/
theorem predRow0 (c : Dev nD) (t : Fin cfg0.N) (r : Fin 512) :
    View.ld (iblk m c 0 t) (Rect.unit (s := S1x3x512) ![0, 0, 0] S1x1x512.size inb_S1x3x512_S1x1x512_0_0_0) (ix3 0 0 r)
      = cloudP m c (ix3 (batchOf t) (Chamfer.tileIdx (tileOf t) r) 0) :=
  predBlock m c t _ (Chamfer.tileIdx (tileOf t) r) 0 rfl rfl
    (show (t.val % 8) * 512 + r.val = (t.val % 8) * 512 + (0 + 1 * r.val) by omega)

/-- Row 1: their second coordinates. -/
theorem predRow1 (c : Dev nD) (t : Fin cfg0.N) (r : Fin 512) :
    View.ld (iblk m c 0 t) (Rect.unit (s := S1x3x512) ![0, 1, 0] S1x1x512.size inb_S1x3x512_S1x1x512_0_1_0) (ix3 0 0 r)
      = cloudP m c (ix3 (batchOf t) (Chamfer.tileIdx (tileOf t) r) 1) :=
  predBlock m c t _ (Chamfer.tileIdx (tileOf t) r) 1 rfl rfl
    (show (t.val % 8) * 512 + r.val = (t.val % 8) * 512 + (0 + 1 * r.val) by omega)

/-- Row 2: their third coordinates. -/
theorem predRow2 (c : Dev nD) (t : Fin cfg0.N) (r : Fin 512) :
    View.ld (iblk m c 0 t) (Rect.unit (s := S1x3x512) ![0, 2, 0] S1x1x512.size inb_S1x3x512_S1x1x512_0_2_0) (ix3 0 0 r)
      = cloudP m c (ix3 (batchOf t) (Chamfer.tileIdx (tileOf t) r) 2) :=
  predBlock m c t _ (Chamfer.tileIdx (tileOf t) r) 2 rfl rfl
    (show (t.val % 8) * 512 + r.val = (t.val % 8) * 512 + (0 + 1 * r.val) by omega)

/-- Row 0 of the second cloud's block: the first coordinates of the batch's points. -/
theorem gtRow0 (c : Dev nD) (t : Fin cfg0.N) (q : Fin 4096) :
    View.ld (iblk m c 1 t) (Rect.unit (s := S1x3x4096) ![0, 0, 0] S1x1x4096.size inb_S1x3x4096_S1x1x4096_0_0_0) (ix3 0 0 q)
      = cloudG m c (ix3 (batchOf t) q 0) :=
  gtBlock m c t _ q 0 rfl rfl (show q.val = 0 + 1 * q.val by omega)

/-- Row 1: their second coordinates. -/
theorem gtRow1 (c : Dev nD) (t : Fin cfg0.N) (q : Fin 4096) :
    View.ld (iblk m c 1 t) (Rect.unit (s := S1x3x4096) ![0, 1, 0] S1x1x4096.size inb_S1x3x4096_S1x1x4096_0_1_0) (ix3 0 0 q)
      = cloudG m c (ix3 (batchOf t) q 1) :=
  gtBlock m c t _ q 1 rfl rfl (show q.val = 0 + 1 * q.val by omega)

/-- Row 2: their third coordinates. -/
theorem gtRow2 (c : Dev nD) (t : Fin cfg0.N) (q : Fin 4096) :
    View.ld (iblk m c 1 t) (Rect.unit (s := S1x3x4096) ![0, 2, 0] S1x1x4096.size inb_S1x3x4096_S1x1x4096_0_2_0) (ix3 0 0 q)
      = cloudG m c (ix3 (batchOf t) q 2) :=
  gtBlock m c t _ q 2 rfl rfl (show q.val = 0 + 1 * q.val by omega)

end Cert.KernelIdeal.KValue

end
-- ==== Proof.Payload.lean ====
/-
  The kernel body's arithmetic at the ideal values, read one element at a time, and one fact of order theory.

  * The body loads three coordinate rows of 512 points and three of 4096 points, each a [1, 1, len] vector. It turns a
    row of the first kind into a column [512, 1], a row of the second kind into a row [1, 4096], spreads both over
    [512, 4096], and takes the difference and its absolute value; the three such matrices are added left to right.
    At (r, q) this is the Manhattan distance between point r of the first cloud and point q of the second
    (pay4_apply).
  * A minimum along axis 1 from the value of the +infinity pattern is, at r, the fold of min over the 4096 columns
    of row r (pay5_apply); along axis 0 it is, at q, the fold of min over the 512 rows of column q (pay2_apply), and
    the same taken against an earlier vector is the min of the two (pay3_apply).
  * The running minimum over eight tiles of 512 is the minimum over all 4096: both sides have the same lower bounds,
    because every i below 4096 is row i % 512 of tile i / 512 (runMin_last).
-/
import proofs.«108670_j85564338471044_1_alg».proof.Proof.Gen.KernelIdeal.Skeleton
import proofs.«108670_j85564338471044_1_alg».proof.Proof.Chamfer
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Mathlib.Data.Finset.Fold

noncomputable section

namespace Cert.KernelIdeal.Pay

open Cert.KernelIdeal Cert.KernelIdeal.Gen Idealize.ShloMosaic Idealize.ShloMosaic.ValueIdx

/-! ## Shape casts and broadcasts that add or drop unit axes, read at an index -/

section Layout
variable {α : Type}

/-- A [1, 1, a] vector viewed as [a] reads, at i, the operand at (0, 0, i). -/
theorem cast_11a_a {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.mul_one, Nat.add_zero, Nat.zero_mul, Nat.zero_add])

/-- An [a] vector viewed as [1, 1, a] reads, at (u, v, i), the operand at i. -/
theorem cast_a_11a {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv, Nat.mul_one, Nat.add_zero, Nat.zero_mul, Nat.zero_add])

/-- An [a] vector viewed as a column [a, 1] reads, at (i, u), the operand at i. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over [a, b] reads, at (p, c), the column at p. -/
theorem bcast_a1_ab {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1, a] vector made a column and spread over [a, b] reads, at (r, q), the vector at r. -/
theorem col_apply {a b : ℕ} (x : (⟨3, ![1, 1, a]⟩ : Shape).Idx → α)
    (h1 : (⟨3, ![1, 1, a]⟩ : Shape).ShapeCasts ⟨1, ![a]⟩) (h2 : (⟨1, ![a]⟩ : Shape).ShapeCasts ⟨2, ![a, 1]⟩)
    (h3 : (⟨2, ![a, 1]⟩ : Shape).Broadcasts ⟨2, ![a, b]⟩) (r : Fin a) (q : Fin b) :
    broadcastTo ⟨2, ![a, b]⟩ (shapeCast ⟨2, ![a, 1]⟩ (shapeCast ⟨1, ![a]⟩ x h1) h2) h3 (ix2 r q)
      = x (ix3 (0 : Fin 1) (0 : Fin 1) r) :=
  (bcast_a1_ab _ h3 r q).trans ((cast_a_a1 _ h2 r 0).trans (cast_11a_a x h1 r))

/-- A [1, 1, b] vector made a row and spread over [a, b] reads, at (r, q), the vector at q. -/
theorem row_apply {a b : ℕ} (x : (⟨3, ![1, 1, b]⟩ : Shape).Idx → α)
    (h1 : (⟨3, ![1, 1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (q : Fin b) :
    broadcastTo ⟨2, ![a, b]⟩ (shapeCast ⟨2, ![1, b]⟩ (shapeCast ⟨1, ![b]⟩ x h1) h2) h3 (ix2 r q)
      = x (ix3 (0 : Fin 1) (0 : Fin 1) q) :=
  (broadcastTo_1b_ab_apply _ h3 r q).trans ((shapeCast_a_1a_apply _ h2 0 q).trans (cast_11a_a x h1 q))

end Layout

/-! ## The matrix of distances -/

/-- One coordinate's matrix of absolute differences, as the body builds it. -/
def gapMat (u : Vec Ideal S1x1x512 .f32) (w : Vec Ideal S1x1x4096 .f32) : FVec Ideal S512x4096 .f32 :=
  absf (subf
    (broadcastTo S512x4096 (shapeCast S512x1 (shapeCast S512 u shapeCasts_S1x1x512_S512) shapeCasts_S512_S512x1)
      broadcasts_S512x1_S512x4096)
    (broadcastTo S512x4096 (shapeCast S1x4096 (shapeCast S4096 w shapeCasts_S1x1x4096_S4096) shapeCasts_S4096_S1x4096)
      broadcasts_S1x4096_S512x4096))

/-- At (r, q) it is the absolute difference of the two coordinates. -/
theorem gapMat_apply (u : Vec Ideal S1x1x512 .f32) (w : Vec Ideal S1x1x4096 .f32) (r : Fin 512) (q : Fin 4096) :
    gapMat u w (ix2 r q) = max (u (ix3 0 0 r) - w (ix3 0 0 q)) (-(u (ix3 0 0 r) - w (ix3 0 0 q))) := by
  have hL := col_apply (b := 4096) u shapeCasts_S1x1x512_S512 shapeCasts_S512_S512x1 broadcasts_S512x1_S512x4096 r q
  have hR := row_apply (a := 512) w shapeCasts_S1x1x4096_S4096 shapeCasts_S4096_S1x4096 broadcasts_S1x4096_S512x4096 r q
  show max (broadcastTo S512x4096 _ _ (ix2 r q) - broadcastTo S512x4096 _ _ (ix2 r q))
      (-(broadcastTo S512x4096 _ _ (ix2 r q) - broadcastTo S512x4096 _ _ (ix2 r q))) = _
  rw [hL, hR]

theorem pay4_apply (v0 v2 v4 : Vec Ideal S1x1x512 .f32) (v6 v8 v10 : Vec Ideal S1x1x4096 .f32) (r : Fin 512) (q : Fin 4096) :
    k0_pay4 (F := Ideal) v0 v2 v4 v6 v8 v10 (ix2 r q)
      = max (v0 (ix3 0 0 r) - v6 (ix3 0 0 q)) (-(v0 (ix3 0 0 r) - v6 (ix3 0 0 q)))
        + max (v2 (ix3 0 0 r) - v8 (ix3 0 0 q)) (-(v2 (ix3 0 0 r) - v8 (ix3 0 0 q)))
        + max (v4 (ix3 0 0 r) - v10 (ix3 0 0 q)) (-(v4 (ix3 0 0 r) - v10 (ix3 0 0 q))) := by
  have e : k0_pay4 (F := Ideal) v0 v2 v4 v6 v8 v10 (ix2 r q)
      = gapMat v0 v6 (ix2 r q) + gapMat v2 v8 (ix2 r q) + gapMat v4 v10 (ix2 r q) := rfl
  rw [e, gapMat_apply, gapMat_apply, gapMat_apply]

/-! ## The minima along one axis -/

/-- A minimum along one axis, at the ideal values: the fold of min from the accumulator's value over that axis's
    coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Over row r, the index with column q put back is (r, q). -/
theorem lift_axis1 (h : S512x4096.Reduces [1] S512) (r : Fin 512) (q : Fin 4096) : h.lift (ix1 r) q = ix2 r q := by
  funext c
  apply Fin.ext
  match c with
  | ⟨0, _⟩ => rfl
  | ⟨1, _⟩ => rfl

/-- Over column q, the index with row r put back is (r, q). -/
theorem lift_axis0 (h : S512x4096.Reduces [0] S4096) (q : Fin 4096) (r : Fin 512) : h.lift (ix1 q) r = ix2 r q := by
  funext c
  apply Fin.ext
  match c with
  | ⟨0, _⟩ => rfl
  | ⟨1, _⟩ => rfl

/-- The column minima at q: the fold of min over the 512 rows of column q. -/
theorem pay1_apply (v31 : FVec Ideal S512x4096 .f32) (q : Fin 4096) :
    k0_pay1 (F := Ideal) v31 (ix1 q) = (Finset.univ : Finset (Fin 512)).fold min Chamfer.top (fun r => v31 (ix2 r q)) := by
  unfold k0_pay1
  refine (multiReduction_minimumf_single v31 _ reduces_S512x4096_S4096 _ _ (ix1 q)).trans ?_
  show (Finset.univ : Finset (Fin 512)).fold min Chamfer.top (v31 ∘ reduces_S512x4096_S4096.lift (ix1 q)) = _
  exact congrArg (fun g => (Finset.univ : Finset (Fin 512)).fold min Chamfer.top g)
    (funext fun r => congrArg v31 (lift_axis0 reduces_S512x4096_S4096 q r))

theorem pay5_apply (v0 v2 v4 : Vec Ideal S1x1x512 .f32) (v6 v8 v10 : Vec Ideal S1x1x4096 .f32) (r : Fin 512) :
    k0_pay5 (F := Ideal) v0 v2 v4 v6 v8 v10 (ix3 0 0 r)
      = (Finset.univ : Finset (Fin 4096)).fold min Chamfer.top (fun q => k0_pay4 (F := Ideal) v0 v2 v4 v6 v8 v10 (ix2 r q)) := by
  unfold k0_pay5
  refine (cast_a_11a _ shapeCasts_S512_S1x1x512 0 0 r).trans ?_
  refine (multiReduction_minimumf_single (k0_pay4 (F := Ideal) v0 v2 v4 v6 v8 v10) _ reduces_S512x4096_S512 _ _ (ix1 r)).trans ?_
  show (Finset.univ : Finset (Fin 4096)).fold min Chamfer.top
      (k0_pay4 (F := Ideal) v0 v2 v4 v6 v8 v10 ∘ reduces_S512x4096_S512.lift (ix1 r)) = _
  exact congrArg (fun g => (Finset.univ : Finset (Fin 4096)).fold min Chamfer.top g)
    (funext fun q => congrArg (k0_pay4 (F := Ideal) v0 v2 v4 v6 v8 v10) (lift_axis1 reduces_S512x4096_S512 r q))

theorem pay2_apply (v31 : FVec Ideal S512x4096 .f32) (q : Fin 4096) :
    k0_pay2 (F := Ideal) v31 (ix3 0 0 q) = (Finset.univ : Finset (Fin 512)).fold min Chamfer.top (fun r => v31 (ix2 r q)) := by
  unfold k0_pay2
  exact (cast_a_11a _ shapeCasts_S4096_S1x1x4096 0 0 q).trans (pay1_apply v31 q)

theorem pay3_apply (v31 : FVec Ideal S512x4096 .f32) (v43 : Vec Ideal S1x1x4096 .f32) (q : Fin 4096) :
    k0_pay3 (F := Ideal) v31 v43 (ix3 0 0 q)
      = min (v43 (ix3 0 0 q)) ((Finset.univ : Finset (Fin 512)).fold min Chamfer.top (fun r => v31 (ix2 r q))) := by
  unfold k0_pay3
  refine (cast_a_11a _ shapeCasts_S4096_S1x1x4096 0 0 q).trans ?_
  show min (shapeCast S4096 v43 shapeCasts_S1x1x4096_S4096 (ix1 q)) (k0_pay1 (F := Ideal) v31 (ix1 q)) = _
  rw [cast_11a_a v43 shapeCasts_S1x1x4096_S4096 q, pay1_apply]

/-! ## The running minimum over the eight tiles is the minimum over all rows -/

/-- The lower bounds of one tile's minimum: those of I and of f on the tile. -/
theorem le_tileMin (I : EReal) (f : Fin 4096 → EReal) (k : Fin 8) (c : EReal) :
    c ≤ Chamfer.tileMin I f k ↔ c ≤ I ∧ ∀ r : Fin 512, c ≤ f (Chamfer.tileIdx k r) := by
  unfold Chamfer.tileMin
  rw [Finset.le_fold_min]
  exact and_congr_right fun _ => ⟨fun h r => h r (Finset.mem_univ r), fun h r _ => h r⟩

theorem runMin_zero (I : EReal) (f : Fin 4096 → EReal) (h : 0 < 8) :
    Chamfer.runMin I f 0 h = Chamfer.tileMin I f ⟨0, h⟩ := rfl

theorem runMin_succ (I : EReal) (f : Fin 4096 → EReal) (k : ℕ) (h : k + 1 < 8) :
    Chamfer.runMin I f (k + 1) h
      = min (Chamfer.runMin I f k (Nat.lt_of_succ_lt h)) (Chamfer.tileMin I f ⟨k + 1, h⟩) := rfl

/-- The lower bounds of the running minimum after tiles 0 … k: those of I and of f on each of those tiles. -/
theorem le_runMin (I : EReal) (f : Fin 4096 → EReal) (k : ℕ) : ∀ (h : k < 8) (c : EReal),
    c ≤ Chamfer.runMin I f k h
      ↔ c ≤ I ∧ ∀ (j : ℕ) (hj : j < 8), j ≤ k → ∀ r : Fin 512, c ≤ f (Chamfer.tileIdx ⟨j, hj⟩ r) := by
  induction k with
  | zero =>
    intro h c
    rw [runMin_zero, le_tileMin]
    refine and_congr_right fun _ => ⟨fun H j hj hle r => ?_, fun H r => H 0 h (Nat.le_refl 0) r⟩
    obtain rfl : j = 0 := Nat.le_zero.1 hle
    exact H r
  | succ k ih =>
    intro h c
    rw [runMin_succ, le_min_iff, ih (Nat.lt_of_succ_lt h) c, le_tileMin]
    constructor
    · rintro ⟨⟨hI, H1⟩, _, H2⟩
      refine ⟨hI, fun j hj hle r => ?_⟩
      rcases Nat.lt_or_eq_of_le hle with hlt | rfl
      · exact H1 j hj (Nat.le_of_lt_succ hlt) r
      · exact H2 r
    · rintro ⟨hI, H⟩
      exact ⟨⟨hI, fun j hj hle r => H j hj (Nat.le_succ_of_le hle) r⟩, hI, fun r => H (k + 1) h (Nat.le_refl _) r⟩

/-- Every row below 4096 is row i % 512 of tile i / 512. -/
theorem eq_tileIdx (i : Fin 4096) :
    i = Chamfer.tileIdx ⟨i.val / 512, by omega⟩ ⟨i.val % 512, by omega⟩ :=
  Fin.ext (by show i.val = i.val / 512 * 512 + i.val % 512; omega)

theorem runMin_last (I : EReal) (f : Fin 4096 → EReal) :
    Chamfer.runMin I f 7 (by decide) = (Finset.univ : Finset (Fin 4096)).fold min I f := by
  apply le_antisymm
  · rw [Finset.le_fold_min]
    have H := (le_runMin I f 7 (by decide) _).1 (le_refl (Chamfer.runMin I f 7 (by decide)))
    refine ⟨H.1, fun i _ => ?_⟩
    rw [eq_tileIdx i]
    exact H.2 _ _ (by omega) _
  · rw [le_runMin]
    have H := (Finset.le_fold_min (c := (Finset.univ : Finset (Fin 4096)).fold min I f)).1 (le_refl _)
    exact ⟨H.1, fun j hj _ r => H.2 _ (Finset.mem_univ _)⟩

end Cert.KernelIdeal.Pay

end
-- ==== Proof.KPoint.lean ====
/-
  What the two results' staging buffers hold after the body at each grid point, over the extended reals.

  At a point of batch b and tile k the body's matrix of distances is d(b, 512 k + r, q); its row minima are the least
  distances from the tile's points to the second cloud, whichever case the point is in; its column minima are the
  tile's minimum of d(b, ·, q). The second result's buffer, carried across a batch's tiles, therefore holds the running
  minimum over the tiles so far — by induction on the position, tile 0 starting it and each later tile extending it.
-/
import proofs.«108670_j85564338471044_1_alg».proof.Proof.KDefs
import proofs.«108670_j85564338471044_1_alg».proof.Proof.KBlocks
import proofs.«108670_j85564338471044_1_alg».proof.Proof.Payload
import Idealize.ShloMosaic.Lib.Pipeline.Value

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The tile's matrix of distances at a grid point is the spec's distance between the tile's points of the first cloud
    and the points of the second. -/
theorem tileD_apply (c : Dev nD) (t : Fin cfg0.N) (r : Fin 512) (q : Fin 4096) :
    tileD (F := Ideal) (iblk m c 0 t) (iblk m c 1 t) (ix2 r q)
      = Chamfer.dist (cloudP m c) (cloudG m c) (batchOf t) (Chamfer.tileIdx (tileOf t) r) q := by
  unfold tileD
  refine (Pay.pay4_apply _ _ _ _ _ _ r q).trans ?_
  rw [predRow0 m c t r, predRow1 m c t r, predRow2 m c t r, gtRow0 m c t q, gtRow1 m c t q, gtRow2 m c t q]
  rfl

/-- Its row minima are the least distances from the tile's points to the second cloud. -/
theorem tileRowMin_apply (c : Dev nD) (t : Fin cfg0.N) (r : Fin 512) :
    tileRowMin (F := Ideal) (iblk m c 0 t) (iblk m c 1 t) (ix3 0 0 r)
      = Chamfer.nearXAt (cloudP m c) (cloudG m c) (batchOf t) (Chamfer.tileIdx (tileOf t) r) := by
  unfold tileRowMin
  refine (Pay.pay5_apply _ _ _ _ _ _ r).trans ?_
  unfold Chamfer.nearXAt
  exact congrArg (fun f => (Finset.univ : Finset (Fin 4096)).fold min Chamfer.top f) (funext fun q => tileD_apply m c t r q)

/-- Its column minima are the tile's minimum of the distances to each point of the second cloud. -/
theorem tileColMin_apply (c : Dev nD) (t : Fin cfg0.N) (q : Fin 4096) :
    (Finset.univ : Finset (Fin 512)).fold min Chamfer.top (fun r => tileD (F := Ideal) (iblk m c 0 t) (iblk m c 1 t) (ix2 r q))
      = Chamfer.tileMin Chamfer.top (fun n' => Chamfer.dist (cloudP m c) (cloudG m c) (batchOf t) n' q) (tileOf t) := by
  unfold Chamfer.tileMin
  exact congrArg (fun f => (Finset.univ : Finset (Fin 512)).fold min Chamfer.top f) (funext fun r => tileD_apply m c t r q)

/-- After the body at point `t` the first result's buffer holds, at row `r`, the least distance from point `r` of the
    point's tile to the second cloud: either case stores the tile's row minima. -/
theorem out2At_apply (c : Dev nD) (t : Fin cfg0.N) (r : Fin 512) :
    out2At m c t (ix3 0 0 r) = Chamfer.nearXAt (cloudP m c) (cloudG m c) (batchOf t) (Chamfer.tileIdx (tileOf t) r) := by
  by_cases h0 : t.val % 8 = 0
  · rw [out2At_A m c t h0, outA_2_eq]
    exact tileRowMin_apply m c t r
  · rw [out2At_B m c t h0, outB_2_eq]
    exact tileRowMin_apply m c t r

/-- The running minimum at a tile index that is zero is tile 0's minimum. -/
theorem runMin_of_zero (I : EReal) (f : Fin 4096 → EReal) (k : ℕ) (hk : k < 8) (h : k = 0) :
    Chamfer.runMin I f k hk = Chamfer.tileMin I f ⟨k, hk⟩ := by
  subst h; rfl

/-- The running minimum at a later tile is the one before taken against the tile's minimum. -/
theorem runMin_of_succ (I : EReal) (f : Fin 4096 → EReal) (k k' : ℕ) (hk : k < 8) (hk' : k' < 8) (h : k = k' + 1) :
    Chamfer.runMin I f k hk = min (Chamfer.runMin I f k' hk') (Chamfer.tileMin I f ⟨k, hk⟩) := by
  subst h; rfl

/-- After the body at position `n` the second result's buffer holds, at column `q`, the running minimum over the
    batch's tiles so far of the distances from the first cloud's points to point `q` of the second: tile 0 stores its
    column minima, a later tile their minimum against what the tile before left — by induction on the position. -/
theorem out3At_apply (c : Dev nD) : ∀ (n : ℕ) (h : n < cfg0.N) (q : Fin 4096),
    out3At m c n h (ix3 0 0 q)
      = Chamfer.runMin Chamfer.top (fun n' => Chamfer.dist (cloudP m c) (cloudG m c) (batchOf ⟨n, h⟩) n' q) (n % 8) (Nat.mod_lt _ (by decide))
  | 0, h, q => by
    rw [out3At_A m c ⟨0, h⟩ rfl, outA_3_eq]
    refine (Pay.pay2_apply _ q).trans ?_
    rw [tileColMin_apply m c ⟨0, h⟩ q]
    rfl
  | n + 1, h, q => by
    have hN : n + 1 < 32 := lt_of_lt_of_eq h (show cfg0.N = 32 from N_0)
    by_cases h0 : (n + 1) % 8 = 0
    · rw [out3At_A m c ⟨n + 1, h⟩ h0, outA_3_eq]
      refine (Pay.pay2_apply _ q).trans ?_
      rw [tileColMin_apply m c ⟨n + 1, h⟩ q, runMin_of_zero _ _ _ _ h0]
      rfl
    · rw [out3At_B m c ⟨n + 1, h⟩ h0, outB_3_eq]
      refine (Pay.pay3_apply _ _ q).trans ?_
      rw [tileColMin_apply m c ⟨n + 1, h⟩ q]
      have hb : batchOf ⟨n, Nat.lt_of_succ_lt h⟩ = batchOf ⟨n + 1, h⟩ := Fin.ext (by show n / 8 = (n + 1) / 8; omega)
      have ih := out3At_apply c n (Nat.lt_of_succ_lt h) q
      rw [hb] at ih
      rw [runMin_of_succ _ _ ((n + 1) % 8) (n % 8) _ (Nat.mod_lt _ (by decide)) (by omega)]
      exact congrArg (fun x => min x _) ih

end Cert.KernelIdeal.KValue

end
-- ==== Proof.KFinal.lean ====
/-
  The two result arrays after the run, opened from what each grid point wrote back.

  The first result is written back at every point: point t (tile t % 8 of batch t / 8) writes the 512 least distances
  of its tile's points, which are rows (t % 8) * 512 + r of batch t / 8; the 32 blocks tile the array. The second is
  written back only after a batch's last tile, when its buffer holds the running minimum over all eight tiles, which is
  the minimum over all 4096 points of the first cloud; the four blocks (one per batch) tile the array.
-/
import proofs.«108670_j85564338471044_1_alg».proof.Proof.KPoint
import proofs.«108670_j85564338471044_1_alg».proof.Proof.Payload
import Idealize.ShloMosaic.Lib.Pipeline.Value

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The block indices of the two result windows at every grid point: the first result's block is (batch, 0, tile), the
    second's is (batch, 0, 0). -/
theorem idx_facts : ∀ t : Fin cfg0.N,
    win0_2.index t (0 : Fin 3) = t.val / 8 ∧ win0_2.index t (1 : Fin 3) = 0 ∧ win0_2.index t (2 : Fin 3) = t.val % 8
    ∧ win0_3.index t (0 : Fin 3) = t.val / 8 ∧ win0_3.index t (1 : Fin 3) = 0 ∧ win0_3.index t (2 : Fin 3) = 0 :=
  (by decide +kernel : ∀ t : Fin grid0.N,
    win0_2.index t (0 : Fin 3) = t.val / 8 ∧ win0_2.index t (1 : Fin 3) = 0 ∧ win0_2.index t (2 : Fin 3) = t.val % 8
    ∧ win0_3.index t (0 : Fin 3) = t.val / 8 ∧ win0_3.index t (1 : Fin 3) = 0 ∧ win0_3.index t (2 : Fin 3) = 0)

/-- A running minimum depends on the tile count only through its value. -/
theorem runMin_congr (I : EReal) (f : Fin 4096 → EReal) (k k' : ℕ) (h : k < 8) (e : k = k') :
    Chamfer.runMin I f k h = Chamfer.runMin I f k' (e ▸ h) := by
  subst e; rfl

/-- What point `t` writes back of the first result is block `t` of the array of least distances. -/
theorem flushed2_eq (c : Dev nD) (t : Fin cfg0.N) (hf : (cfg0.win 2).flush t = true) :
    (dats m 0 c).flushed 2 t = ((cfg0.win 2).blk t).view.read (Elt Ideal)
      (fun j : S4x1x4096.Idx => Chamfer.nearXAt (cloudP m c) (cloudG m c) (j 0) (j 2)) := by
  show (cfg0.win 2).cut (grid0.coords t) ((dats m 0 c).after 2 t) = _
  rw [after0_2]
  funext y
  obtain ⟨a, b, r, rfl⟩ : ∃ (a : Fin 1) (b : Fin 1) (r : Fin 512), y = ix3 a b r := ⟨y 0, y 1, y 2, eq_ix3 y⟩
  obtain rfl : a = 0 := Subsingleton.elim _ _
  obtain rfl : b = 0 := Subsingleton.elim _ _
  rw [View.read_apply]
  obtain ⟨e0, e1, e2, -, -, -⟩ := idx_facts t
  have hN : t.val < 32 := lt_of_lt_of_eq t.isLt (show cfg0.N = 32 from N_0)
  have h0 : (((cfg0.win 2).blk t).view.emb (ix3 (0 : Fin 1) (0 : Fin 1) r) 0 : Fin 4) = batchOf t := Fin.ext (by
    show win0_2.index t (0 : Fin 3) * 1 + 1 * 0 = t.val / 8
    omega)
  have h2 : (((cfg0.win 2).blk t).view.emb (ix3 (0 : Fin 1) (0 : Fin 1) r) 2 : Fin 4096) = Chamfer.tileIdx (tileOf t) r := Fin.ext (by
    show win0_2.index t (2 : Fin 3) * 512 + 1 * r.val = t.val % 8 * 512 + r.val
    omega)
  show out2At m c t (ix3 0 0 r) = Chamfer.nearXAt (cloudP m c) (cloudG m c) (((cfg0.win 2).blk t).view.emb (ix3 (0 : Fin 1) (0 : Fin 1) r) 0) (((cfg0.win 2).blk t).view.emb (ix3 (0 : Fin 1) (0 : Fin 1) r) 2)
  rw [out2At_apply]
  exact (congrArg₂ (Chamfer.nearXAt (cloudP m c) (cloudG m c)) h0 h2).symm

/-- What a batch's last point writes back of the second result is the batch's block of the array of least distances:
    the running minimum over all eight tiles is the minimum over all points of the first cloud. -/
theorem flushed3_eq (c : Dev nD) (t : Fin cfg0.N) (hf : (cfg0.win 3).flush t = true) :
    (dats m 0 c).flushed 3 t = ((cfg0.win 3).blk t).view.read (Elt Ideal)
      (fun j : S4x1x4096.Idx => Chamfer.nearYAt (cloudP m c) (cloudG m c) (j 0) (j 2)) := by
  have h7 : t.val % 8 = 7 := (flush0_3 t).mp hf
  show (cfg0.win 3).cut (grid0.coords t) ((dats m 0 c).after 3 t) = _
  rw [after0_3]
  funext y
  obtain ⟨a, b, q, rfl⟩ : ∃ (a : Fin 1) (b : Fin 1) (q : Fin 4096), y = ix3 a b q := ⟨y 0, y 1, y 2, eq_ix3 y⟩
  obtain rfl : a = 0 := Subsingleton.elim _ _
  obtain rfl : b = 0 := Subsingleton.elim _ _
  rw [View.read_apply]
  obtain ⟨-, -, -, e0, e1, e2⟩ := idx_facts t
  have hN : t.val < 32 := lt_of_lt_of_eq t.isLt (show cfg0.N = 32 from N_0)
  have h0 : (((cfg0.win 3).blk t).view.emb (ix3 (0 : Fin 1) (0 : Fin 1) q) 0 : Fin 4) = batchOf t := Fin.ext (by
    show win0_3.index t (0 : Fin 3) * 1 + 1 * 0 = t.val / 8
    omega)
  have h2 : (((cfg0.win 3).blk t).view.emb (ix3 (0 : Fin 1) (0 : Fin 1) q) 2 : Fin 4096) = q := Fin.ext (by
    show win0_3.index t (2 : Fin 3) * 4096 + 1 * q.val = q.val
    omega)
  show out3At m c t.val t.isLt (ix3 0 0 q) = Chamfer.nearYAt (cloudP m c) (cloudG m c) (((cfg0.win 3).blk t).view.emb (ix3 (0 : Fin 1) (0 : Fin 1) q) 0) (((cfg0.win 3).blk t).view.emb (ix3 (0 : Fin 1) (0 : Fin 1) q) 2)
  rw [out3At_apply, runMin_congr _ _ _ 7 _ h7, Pay.runMin_last, h0, h2]
  rfl

/-- The first result array ends holding, at `(b, 0, n)`, the least distance from point `n` of the first cloud to the second. -/
theorem final2 (c : Dev nD) :
    (dats m 0 c).arrAt 2 cfg0.N = fun j : S4x1x4096.Idx => Chamfer.nearXAt (cloudP m c) (cloudG m c) (j 0) (j 2) :=
  (dats m 0 c).arrAt_eq_of_cover 2 _ (flushed2_eq m c) fun (i : S4x1x4096.Idx) => by
    have hi0 : (i 0).val < 4 := (i 0).isLt
    have hi1 : (i 1).val < 1 := (i 1).isLt
    have hi2 : (i 2).val < 4096 := (i 2).isLt
    obtain ⟨t, ht⟩ : ∃ t : Fin cfg0.N, t.val = 8 * (i 0).val + (i 2).val / 512 :=
      ⟨⟨8 * (i 0).val + (i 2).val / 512, by rw [show cfg0.N = 32 from N_0]; omega⟩, rfl⟩
    obtain ⟨e0, e1, e2, -, -, -⟩ := idx_facts t
    refine ⟨t, flush0_2 t, ?_⟩
    show i ∈ ((View.whole main_v2_0).slice (win0_2.rect t)).set
    rw [View.set_slice_whole, Rect.mem_set_unit]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 1 ≤ (i 1).val ∧ (i 1).val < win0_2.index t (1 : Fin 3) * 1 + 1; omega
    | ⟨2, _⟩ => show win0_2.index t (2 : Fin 3) * 512 ≤ (i 2).val ∧ (i 2).val < win0_2.index t (2 : Fin 3) * 512 + 512; omega

/-- The second ends holding, at `(b, 0, q)`, the least distance from point `q` of the second cloud to the first. -/
theorem final3 (c : Dev nD) :
    (dats m 0 c).arrAt 3 cfg0.N = fun j : S4x1x4096.Idx => Chamfer.nearYAt (cloudP m c) (cloudG m c) (j 0) (j 2) :=
  (dats m 0 c).arrAt_eq_of_cover 3 _ (flushed3_eq m c) fun (i : S4x1x4096.Idx) => by
    have hi0 : (i 0).val < 4 := (i 0).isLt
    have hi1 : (i 1).val < 1 := (i 1).isLt
    have hi2 : (i 2).val < 4096 := (i 2).isLt
    obtain ⟨t, ht⟩ : ∃ t : Fin cfg0.N, t.val = 8 * (i 0).val + 7 :=
      ⟨⟨8 * (i 0).val + 7, by rw [show cfg0.N = 32 from N_0]; omega⟩, rfl⟩
    obtain ⟨-, -, -, e0, e1, e2⟩ := idx_facts t
    refine ⟨t, (flush0_3 t).mpr (by omega), ?_⟩
    show i ∈ ((View.whole main_v2_1).slice (win0_3.rect t)).set
    rw [View.set_slice_whole, Rect.mem_set_unit]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1 ≤ (i 1).val ∧ (i 1).val < win0_3.index t (1 : Fin 3) * 1 + 1; omega
    | ⟨2, _⟩ => show win0_3.index t (2 : Fin 3) * 4096 ≤ (i 2).val ∧ (i 2).val < win0_3.index t (2 : Fin 3) * 4096 + 4096; omega

end Cert.KernelIdeal.KValue

end
-- ==== Proof.KRun.lean ====
/-
  The kernel program's value, read against the specification.

  The program transposes the two clouds, runs one region over the grid of 4 batches by 8 tiles that leaves two
  [4, 1, 4096] arrays — at `(b, 0, n)` the least distance from point `n` of the first cloud to the second, and at
  `(b, 0, q)` the least distance from point `q` of the second cloud to the first —, and finishes on the host: each
  array recast to [4, 4096], its rows' means, the two means added, and the mean over the four batches.

  * `shapeCast_drop_mid_apply`, `shapeCast_drop_mid`: the recast of a [4, 1, 4096] array to [4, 4096] reads, at
    `(b, n)`, the operand at `(b, 0, n)`, the two indices having the same row-major position.
  * `arr2`, `arr3`: what the host lines after the region find in the two result arrays.
  * `tail_val`: so the last host line's result is the specification's `tail` of the two arrays of least distances.
  * `run`: every weakly fair execution of the program ends with its result there and its two arguments unchanged.
-/
import proofs.«108670_j85564338471044_1_alg».proof.Proof.KFinal
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The recast that drops the middle unit axis -/

/-- A `[4, 1, 4096]` array cast to `[4, 4096]` reads, at `(b, n)`, the operand at `(b, 0, n)`: the two indices have the
    same row-major position, `(b * 1 + 0) * 4096 + n = b * 4096 + n`. -/
theorem shapeCast_drop_mid_apply {α : Type} (x : S4x1x4096.Idx → α) (b : Fin 4) (n : Fin 4096) :
    shapeCast S4x4096 x shapeCasts_S4x1x4096_S4x4096 (ix2 b n) = x (ix3 b (0 : Fin 1) n) :=
  shapeCast_apply x shapeCasts_S4x1x4096_S4x4096 _ _ (by
    rw [Shape.rowMajor_val_three, Shape.rowMajor_val_two]
    show (b.val * 1 + 0) * 4096 + n.val = b.val * 4096 + n.val
    omega)

/-- So an array given at `(b, u, n)` by a function of `(b, n)` casts to that function of the two coordinates. -/
theorem shapeCast_drop_mid (f : Fin 4 → Fin 4096 → EReal) :
    shapeCast S4x4096 (fun j : S4x1x4096.Idx => f (j 0) (j 2)) shapeCasts_S4x1x4096_S4x4096
      = fun j : S4x4096.Idx => f (j 0) (j 1) := by
  funext j
  obtain ⟨b, n, rfl⟩ : ∃ (b : Fin 4) (n : Fin 4096), j = ix2 b n := ⟨j 0, j 1, eq_ix2 j⟩
  exact shapeCast_drop_mid_apply _ b n

/-! ## The two result arrays as the host lines after the region find them -/

/-- The first result array, as left by the region: at `(b, 0, n)` the least distance from point `n` of the first cloud
    to the points of the second. -/
theorem arr2 (c : Dev nD) :
    Pipeline.withArrays spec0 c (V0 m c) (fun w => (dats m 0 c).arrAt w cfg0.N) (Proc.devRef .tc main_v2_0)
      = fun j : S4x1x4096.Idx => Chamfer.nearXAt (cloudP m c) (cloudG m c) (j 0) (j 2) :=
  (Pipeline.withArrays_arr spec0 launch0.win.arr_inj c _ _ 2).trans (final2 m c)

/-- The second: at `(b, 0, q)` the least distance from point `q` of the second cloud to the points of the first. -/
theorem arr3 (c : Dev nD) :
    Pipeline.withArrays spec0 c (V0 m c) (fun w => (dats m 0 c).arrAt w cfg0.N) (Proc.devRef .tc main_v2_1)
      = fun j : S4x1x4096.Idx => Chamfer.nearYAt (cloudP m c) (cloudG m c) (j 0) (j 2) :=
  (Pipeline.withArrays_arr spec0 launch0.win.arr_inj c _ _ 3).trans (final3 m c)

/-! ## The host lines after the region -/

/-- The last host line's result: the lines after the region are the specification's `tail` applied to the two result
    arrays recast to [4, 4096], and those recasts are `nearX` and `nearY` of the two clouds. -/
theorem tail_val (c : Dev nD) :
    Pipeline.afterTail₀ cfgs (dats m) 0 (V0 m) [hostOps1] c main_v13
      = Chamfer.tail reducesTo_S4x4096_S4_d1 h_S_ bcast_S_S4 reducesTo_S4_S_d0
              (Chamfer.nearX (cloudP m c) (cloudG m c)) (Chamfer.nearY (cloudP m c) (cloudG m c)) := by
  unfold Pipeline.afterTail₀
  show StableHlo.after hostOps1 _ (Proc.devRef .tc main_v13) = _
  after_results
  show Chamfer.tail reducesTo_S4x4096_S4_d1 h_S_ bcast_S_S4 reducesTo_S4_S_d0
      (shapeCast S4x4096 (Pipeline.withArrays spec0 c (V0 m c) (fun w => (dats m 0 c).arrAt w cfg0.N) (Proc.devRef .tc main_v2_0)) shapeCasts_S4x1x4096_S4x4096)
      (shapeCast S4x4096 (Pipeline.withArrays spec0 c (V0 m c) (fun w => (dats m 0 c).arrAt w cfg0.N) (Proc.devRef .tc main_v2_1)) shapeCasts_S4x1x4096_S4x4096) = _
  rw [arr2, arr3, shapeCast_drop_mid, shapeCast_drop_mid]
  rfl

/-! ## The run -/

/-- On every device, from any memory with zero counters: every weakly fair execution of the program terminates with
    its result at the specification's `tail` of the two arrays of least distances of its arguments, and the arguments
    unchanged. The result and the two arguments are buffers no window of the region stages, so each ends as the host
    lines after the region leave it. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
          = Chamfer.tail reducesTo_S4x4096_S4_d1 h_S_ bcast_S_S4 reducesTo_S4_S_d0
              (Chamfer.nearX (cloudP m c) (cloudG m c)) (Chamfer.nearY (cloudP m c) (cloudG m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v13 (Pipeline.mem_restRefs_of main_v13 (by decide) (by decide))).trans (tail_val m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (Cert.KernelIdeal.Body.run_main m ρ)

end Cert.KernelIdeal.KValue

end
-- ==== Proof.RefValue.lean ====
/-
  The reference program's value, read against the specification.

  For point clouds `p`, `g` of shape [4, 4096, 3] the reference forms the array
  `d[b, n, m] = 0 + (|p[b,n,0] - g[b,m,0]| + |p[b,n,1] - g[b,m,1]| + |p[b,n,2] - g[b,m,2]|)`
  (two broadcasts of each cloud, a difference, an absolute value, a sum over the last axis from zero), then takes
  the minimum of `d` over `m` (axis 2) and over `n` (axis 1), each a fold of `min` from the +infinity pattern,
  and finishes with row means, their sum, and the mean over the four batches.

  * `d_apply`: `d` at `(b, n, m)` is the specification's Manhattan distance `Chamfer.dist p g b n m`.
  * `nearX_eq`, `nearY_eq`: the two minimum arrays are `Chamfer.nearX p g` and `Chamfer.nearY p g`:
    a minimum over one axis is, at `(b, n)`, the fold of `min` over that axis's 4096 coordinates of `d` at the
    index with the coordinate inserted, and each such element is a distance by `d_apply`.
  * `run`: every weakly fair execution of the program ends with its result at `Chamfer.tail` of those two arrays
    and its two arguments unchanged.
-/
import proofs.«108670_j85564338471044_1_alg».proof.Proof.Gen.ReferenceIdeal.Run
import proofs.«108670_j85564338471044_1_alg».proof.Proof.Gen.ReferenceIdeal.Read
import proofs.«108670_j85564338471044_1_alg».proof.Proof.Chamfer

noncomputable section

namespace Cert.ReferenceIdeal.RefValue

open Cert.ReferenceIdeal Cert.ReferenceIdeal.Gen Idealize.ShloMosaic Idealize.ShloMosaic.TcCoe Idealize.SL.Sem Idealize.ShloMosaic.ValueIdx

/-! ## The distance array at an index -/

/-- Through the sum's index map and the first cloud's two broadcasts, position `(b, n, m, k)` of the rank-4 array reads
    the first cloud at `(b, n, k)`: the inserted unit axis and the broadcast axis `m` drop out. -/
theorem idx_p (b : Fin 4) (n m : Fin 4096) (k : Fin 3) :
    Read.idx_main_v0 (Read.idx_main_v2 (Read.idx_main_v6 (ix3 b n m) k)) = ix3 b n k := by
  funext a; match a with | ⟨0, _⟩ => rfl | ⟨1, _⟩ => rfl | ⟨2, _⟩ => rfl

/-- Likewise position `(b, n, m, k)` reads the second cloud at `(b, m, k)`: the broadcast axis `n` drops out. -/
theorem idx_g (b : Fin 4) (n m : Fin 4096) (k : Fin 3) :
    Read.idx_main_v1 (Read.idx_main_v3 (Read.idx_main_v6 (ix3 b n m) k)) = ix3 b m k := by
  funext a; match a with | ⟨0, _⟩ => rfl | ⟨1, _⟩ => rfl | ⟨2, _⟩ => rfl

/-- The distance array: at `(b, n, m)` the reference's sum from zero over the three coordinates of
    `|p[b,n,c] - g[b,m,c]|` is the specification's `dist`. The sum over `Fin 3` is its three terms added left to
    right, the zero pattern denotes `0`, and the absolute value of `a` is `max a (-a)`. -/
theorem d_apply (p g : FVec Ideal S4x4096x3 .f32) (b : Fin 4) (n m : Fin 4096) :
    Host.reduceAdd (F := Ideal) (Host.absf (subf (broadcastInDim S4x4096x4096x3 ![0, 1, 2, 3] bcast_S4x4096x1x3_S4x4096x4096x3_0_1_2_3 (broadcastInDim S4x4096x1x3 ![0, 1, 3] bcast_S4x4096x3_S4x4096x1x3_0_1_3 p)) (broadcastInDim S4x4096x4096x3 ![0, 1, 2, 3] bcast_S4x1x4096x3_S4x4096x4096x3_0_1_2_3 (broadcastInDim S4x1x4096x3 ![0, 2, 3] bcast_S4x4096x3_S4x1x4096x3_0_2_3 g)))) (constant S_ .f32 0x00000000#32) reducesTo_S4x4096x4096x3_S4x4096x4096_d3 h_S_ (ix3 b n m)
      = Chamfer.dist p g b n m := by
  show Read.val_main_v6 (F := Ideal) p g (ix3 b n m) = _
  rw [Read.val_main_v6_apply, Fin.sum_univ_three]
  simp only [Read.val_main_v5_apply, Read.val_main_v4_apply, Read.val_main_v2_apply, Read.val_main_v3_apply,
    Read.val_main_v0_apply, Read.val_main_v1_apply, Read.val_main_cst_apply, idx_p, idx_g]
  rw [Ideal.ofBits_def, Ideal.ofBits_zero_f32, zero_add]
  rfl

/-! ## The two minimum arrays -/

/-- Inserting coordinate `k` on axis 2 over the result index `(b, n)` gives `(b, n, k)`. -/
theorem lift_d2 (h : S4x4096x4096.Reduces [2] S4x4096) (b : Fin 4) (n k : Fin 4096) :
    h.lift (ix2 b n) k = ix3 b n k := by
  funext c; apply Fin.ext; match c with | ⟨0, _⟩ => rfl | ⟨1, _⟩ => rfl | ⟨2, _⟩ => rfl

/-- Inserting coordinate `k` on axis 1 over the result index `(b, n)` gives `(b, k, n)`. -/
theorem lift_d1 (h : S4x4096x4096.Reduces [1] S4x4096) (b : Fin 4) (n k : Fin 4096) :
    h.lift (ix2 b n) k = ix3 b k n := by
  funext c; apply Fin.ext; match c with | ⟨0, _⟩ => rfl | ⟨1, _⟩ => rfl | ⟨2, _⟩ => rfl

/-- The minimum of the distance array over its last axis is the array of least distances from each point of `p` to
    the points of `g`: at `(b, n)` both are the fold of `min` from +infinity over `m` of `dist p g b n m`. -/
theorem nearX_eq (p g : FVec Ideal S4x4096x3 .f32) :
    Host.reduce (FloatOps.minimumf (F := Ideal) (φ := .f32)) (Host.reduceAdd (Host.absf (subf (broadcastInDim S4x4096x4096x3 ![0, 1, 2, 3] bcast_S4x4096x1x3_S4x4096x4096x3_0_1_2_3 (broadcastInDim S4x4096x1x3 ![0, 1, 3] bcast_S4x4096x3_S4x4096x1x3_0_1_3 p)) (broadcastInDim S4x4096x4096x3 ![0, 1, 2, 3] bcast_S4x1x4096x3_S4x4096x4096x3_0_1_2_3 (broadcastInDim S4x1x4096x3 ![0, 2, 3] bcast_S4x4096x3_S4x1x4096x3_0_2_3 g)))) (constant S_ .f32 0x00000000#32) reducesTo_S4x4096x4096x3_S4x4096x4096_d3 h_S_) (constant S_ .f32 0x7F800000#32) reducesTo_S4x4096x4096_S4x4096_d2 h_S_
      = Chamfer.nearX p g := by
  funext j
  obtain ⟨b, n, rfl⟩ : ∃ (b : Fin 4) (n : Fin 4096), j = ix2 b n := ⟨j 0, j 1, eq_ix2 j⟩
  rw [Host.reduce_eq_fold_single _ _ _ reducesTo_S4x4096x4096_S4x4096_d2 (by decide) h_S_ (ix2 b n), Chamfer.nearX_ix2]
  unfold Chamfer.nearXAt
  refine Finset.fold_congr (fun k _ => ?_)
  exact (congrArg _ (lift_d2 _ b n k)).trans (d_apply p g b n k)

/-- The minimum of the distance array over its middle axis is the array of least distances from each point of `g` to
    the points of `p`: at `(b, m)` both are the fold of `min` from +infinity over `n` of `dist p g b n m`. -/
theorem nearY_eq (p g : FVec Ideal S4x4096x3 .f32) :
    Host.reduce (FloatOps.minimumf (F := Ideal) (φ := .f32)) (Host.reduceAdd (Host.absf (subf (broadcastInDim S4x4096x4096x3 ![0, 1, 2, 3] bcast_S4x4096x1x3_S4x4096x4096x3_0_1_2_3 (broadcastInDim S4x4096x1x3 ![0, 1, 3] bcast_S4x4096x3_S4x4096x1x3_0_1_3 p)) (broadcastInDim S4x4096x4096x3 ![0, 1, 2, 3] bcast_S4x1x4096x3_S4x4096x4096x3_0_1_2_3 (broadcastInDim S4x1x4096x3 ![0, 2, 3] bcast_S4x4096x3_S4x1x4096x3_0_2_3 g)))) (constant S_ .f32 0x00000000#32) reducesTo_S4x4096x4096x3_S4x4096x4096_d3 h_S_) (constant S_ .f32 0x7F800000#32) reducesTo_S4x4096x4096_S4x4096_d1 h_S_
      = Chamfer.nearY p g := by
  funext j
  obtain ⟨b, n, rfl⟩ : ∃ (b : Fin 4) (n : Fin 4096), j = ix2 b n := ⟨j 0, j 1, eq_ix2 j⟩
  rw [Host.reduce_eq_fold_single _ _ _ reducesTo_S4x4096x4096_S4x4096_d1 (by decide) h_S_ (ix2 b n), Chamfer.nearY_ix2]
  unfold Chamfer.nearYAt
  refine Finset.fold_congr (fun k _ => ?_)
  exact (congrArg _ (lift_d1 _ b n k)).trans (d_apply p g b k n)

/-! ## The run -/

/-- On every device, from any memory with zero counters: every weakly fair execution of the program terminates with
    its result at the specification's `tail` of the two arrays of least distances of its arguments, and the arguments
    unchanged. The composed term of the run has the tail's shape around the two minimum arrays, which are `nearX` and
    `nearY` of the arguments by the two theorems above. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17)
          = Chamfer.tail reducesTo_S4x4096_S4_d1 h_S_ bcast_S_S4 reducesTo_S4_S_d0
              (Chamfer.nearX (m ((c.tc : Thread nD τ).loc main_arg0)) (m ((c.tc : Thread nD τ).loc main_arg1)))
              (Chamfer.nearY (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      unfold Chamfer.tail
      rw [nearX_eq, nearY_eq]), (h c).2⟩) (Cert.ReferenceIdeal.Value.run (F := Ideal) m ρ)

end Cert.ReferenceIdeal.RefValue

end
-- ==== Proof.lean ====
/-
  The certificate of the two-way nearest-point (Chamfer) distance kernel against its plain reference.

  For two clouds of 4 x 4096 points in three coordinates both programs compute, with d(b,n,m) the Manhattan distance
  between point n of the first cloud and point m of the second in batch b,
      mean over b of ( mean over n of min over m of d(b,n,m)  +  mean over m of min over n of d(b,n,m) ).
  The reference forms the whole 4 x 4096 x 4096 array of distances and reduces it; the kernel walks the first cloud in
  tiles of 512 points, writes each tile's row minima straight out, and carries the column minima from tile to tile of a
  batch, taking each tile's against what the tiles before left. Over the extended reals a sum of three terms does not
  depend on how it is grouped, and a minimum over 4096 points is the minimum of the minima over eight tiles: these two
  facts are all that joins the two sides, so the inputs' finiteness is never used. The host lines after the two arrays
  of minima are the same in both programs and are carried as one function of the two arrays.

  The two kernel programs' frames are the body's run at every grid point, by cases on the tile (tile 0 stores, a later
  tile accumulates), launched through the pipeline with the host lines after it; the reference's frame is its run.
-/
import proofs.«108670_j85564338471044_1_alg».proof.Defs
import proofs.«108670_j85564338471044_1_alg».proof.Proof.Gen.Kernel
import proofs.«108670_j85564338471044_1_alg».proof.Proof.Gen.KernelIdeal
import proofs.«108670_j85564338471044_1_alg».proof.Proof.Gen.ReferenceIdeal
import proofs.«108670_j85564338471044_1_alg».proof.Proof.Gen.Pre_finite_inputs
import proofs.«108670_j85564338471044_1_alg».proof.Proof.BodyBitsFrame
import proofs.«108670_j85564338471044_1_alg».proof.Proof.KRun
import proofs.«108670_j85564338471044_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Body.frame m ρ

/-- So does the kernel program read over the extended reals. -/
theorem frame_ki : Cert.frame_KernelIdeal := fun m ρ _ => Cert.KernelIdeal.Body.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end at the same number: the shared host lines applied to the two arrays of
    least distances of the argument clouds, which agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
